-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S64x50000 : Shape := ⟨2, ![64, 50000]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel
  bcast_S_S64x50000 : S_.BroadcastsInDim S64x50000 (![] : Fin 0 → Fin S64x50000.rank)
  reducesTo_S64x50000_S_d0_1 : S64x50000.ReducesTo [0, 1] S_

variable [Facts]

def fn_part2 {F : FTy → Type} [FloatOps F] (main_arg4 : IVec S64x50000 32) (main_v24 : IVec S_ 1) (main_v31 : IVec S_ 1) : IVec S_ 1 :=
  let main_v32 : IVec S_ 1 := andi main_v24 main_v31
  let main_c_14 : IVec S_ 32 := constantI S_ 32 0#32
  let main_v33 : IVec S64x50000 32 := broadcastInDim S64x50000 ![] bcast_S_S64x50000 main_c_14
  let main_v34 : IVec S64x50000 1 := cmpi .sge main_arg4 main_v33
  let main_c_15 : IVec S_ 1 := constantI S_ 1 1#1
  let main_v35 : IVec S_ 1 := (fun x v => Host.reduce IntOp.andi x v reducesTo_S64x50000_S_d0_1 h_S_) main_v34 main_c_15
  let main_c_16 : IVec S_ 32 := constantI S_ 32 512#32
  let main_v36 : IVec S64x50000 32 := broadcastInDim S64x50000 ![] bcast_S_S64x50000 main_c_16
  let main_v37 : IVec S64x50000 1 := cmpi .slt main_arg4 main_v36
  let main_c_17 : IVec S_ 1 := constantI S_ 1 1#1
  let main_v38 : IVec S_ 1 := (fun x v => Host.reduce IntOp.andi x v reducesTo_S64x50000_S_d0_1 h_S_) main_v37 main_c_17
  let main_v39 : IVec S_ 1 := andi main_v35 main_v38
  let main_v40 : IVec S_ 1 := andi main_v32 main_v39
  main_v40

def fn_part1 {F : FTy → Type} [FloatOps F] (main_arg2 : IVec S64x50000 32) (main_arg3 : IVec S64x50000 32) (main_arg4 : IVec S64x50000 32) (main_v8 : IVec S_ 1) (main_v15 : IVec S_ 1) : IVec S_ 1 :=
  let main_v16 : IVec S_ 1 := andi main_v8 main_v15
  let main_c_6 : IVec S_ 32 := constantI S_ 32 0#32
  let main_v17 : IVec S64x50000 32 := broadcastInDim S64x50000 ![] bcast_S_S64x50000 main_c_6
  let main_v18 : IVec S64x50000 1 := cmpi .sge main_arg2 main_v17
  let main_c_7 : IVec S_ 1 := constantI S_ 1 1#1
  let main_v19 : IVec S_ 1 := (fun x v => Host.reduce IntOp.andi x v reducesTo_S64x50000_S_d0_1 h_S_) main_v18 main_c_7
  let main_c_8 : IVec S_ 32 := constantI S_ 32 512#32
  let main_v20 : IVec S64x50000 32 := broadcastInDim S64x50000 ![] bcast_S_S64x50000 main_c_8
  let main_v21 : IVec S64x50000 1 := cmpi .slt main_arg2 main_v20
  let main_c_9 : IVec S_ 1 := constantI S_ 1 1#1
  let main_v22 : IVec S_ 1 := (fun x v => Host.reduce IntOp.andi x v reducesTo_S64x50000_S_d0_1 h_S_) main_v21 main_c_9
  let main_v23 : IVec S_ 1 := andi main_v19 main_v22
  let main_v24 : IVec S_ 1 := andi main_v16 main_v23
  let main_c_10 : IVec S_ 32 := constantI S_ 32 0#32
  let main_v25 : IVec S64x50000 32 := broadcastInDim S64x50000 ![] bcast_S_S64x50000 main_c_10
  let main_v26 : IVec S64x50000 1 := cmpi .sge main_arg3 main_v25
  let main_c_11 : IVec S_ 1 := constantI S_ 1 1#1
  let main_v27 : IVec S_ 1 := (fun x v => Host.reduce IntOp.andi x v reducesTo_S64x50000_S_d0_1 h_S_) main_v26 main_c_11
  let main_c_12 : IVec S_ 32 := constantI S_ 32 512#32
  let main_v28 : IVec S64x50000 32 := broadcastInDim S64x50000 ![] bcast_S_S64x50000 main_c_12
  let main_v29 : IVec S64x50000 1 := cmpi .slt main_arg3 main_v28
  let main_c_13 : IVec S_ 1 := constantI S_ 1 1#1
  let main_v30 : IVec S_ 1 := (fun x v => Host.reduce IntOp.andi x v reducesTo_S64x50000_S_d0_1 h_S_) main_v29 main_c_13
  let main_v31 : IVec S_ 1 := andi main_v27 main_v30
  fn_part2 (F := F) main_arg4 main_v24 main_v31

def fn {F : FTy → Type} [FloatOps F] (main_arg0 : FVec F S64x1x512x512 .f32) (main_arg1 : IVec S64x50000 32) (main_arg2 : IVec S64x50000 32) (main_arg3 : IVec S64x50000 32) (main_arg4 : IVec S64x50000 32) (main_arg5 : FVec F S64x50000 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x50000 .f32 := Host.absf main_arg5
  let main_cst_0 : FVec F S_ .f32 := constant S_ .f32 0x7F800000#32
  let main_v5 : FVec F S64x50000 .f32 := broadcastInDim S64x50000 ![] bcast_S_S64x50000 main_cst_0
  let main_v6 : IVec S64x50000 1 := cmpf .olt main_v4 main_v5
  let main_c_1 : IVec S_ 1 := constantI S_ 1 1#1
  let main_v7 : IVec S_ 1 := (fun x v => Host.reduce IntOp.andi x v reducesTo_S64x50000_S_d0_1 h_S_) main_v6 main_c_1
  let main_v8 : IVec S_ 1 := andi main_v3 main_v7
  let main_c_2 : IVec S_ 32 := constantI S_ 32 0#32
  let main_v9 : IVec S64x50000 32 := broadcastInDim S64x50000 ![] bcast_S_S64x50000 main_c_2
  let main_v10 : IVec S64x50000 1 := cmpi .sge main_arg1 main_v9
  let main_c_3 : IVec S_ 1 := constantI S_ 1 1#1
  let main_v11 : IVec S_ 1 := (fun x v => Host.reduce IntOp.andi x v reducesTo_S64x50000_S_d0_1 h_S_) main_v10 main_c_3
  let main_c_4 : IVec S_ 32 := constantI S_ 32 512#32
  let main_v12 : IVec S64x50000 32 := broadcastInDim S64x50000 ![] bcast_S_S64x50000 main_c_4
  let main_v13 : IVec S64x50000 1 := cmpi .slt main_arg1 main_v12
  let main_c_5 : IVec S_ 1 := constantI S_ 1 1#1
  let main_v14 : IVec S_ 1 := (fun x v => Host.reduce IntOp.andi x v reducesTo_S64x50000_S_d0_1 h_S_) main_v13 main_c_5
  let main_v15 : IVec S_ 1 := andi main_v11 main_v14
  fn_part1 (F := F) main_arg2 main_arg3 main_arg4 main_v8 main_v15
-- ==== Kernel.lean ====
abbrev S64x1x512x512 : Shape := ⟨4, ![64, 1, 512, 512]⟩
abbrev S64x50000 : Shape := ⟨2, ![64, 50000]⟩
abbrev S64x512x512 : Shape := ⟨3, ![64, 512, 512]⟩
abbrev S_ : Shape := ⟨0, ![]⟩
abbrev S64x50176 : Shape := ⟨2, ![64, 50176]⟩
abbrev S64x49x1x1024 : Shape := ⟨4, ![64, 49, 1, 1024]⟩
abbrev S64x1x128 : Shape := ⟨3, ![64, 1, 128]⟩
abbrev S1x512x512 : Shape := ⟨3, ![1, 512, 512]⟩
abbrev S1x1x1x1024 : Shape := ⟨4, ![1, 1, 1, 1024]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩
abbrev S1x1024 : Shape := ⟨2, ![1, 1024]⟩
abbrev S1 : Shape := ⟨1, ![1]⟩
abbrev S1x1 : Shape := ⟨2, ![1, 1]⟩
abbrev S64x1x1 : Shape := ⟨3, ![64, 1, 1]⟩
abbrev S64 : Shape := ⟨1, ![64]⟩

abbrev nBuf : Space → Nat
  | .hbm => 38
  | .vmem => 16
  | .smem => 0
  | _ => 0

abbrev bufTy : (tb : Table) → Fin (tcTables nBuf tb) → BufTy
  | .hbm, ⟨0, _⟩ => ⟨S64x1x512x512, .f32⟩
  | .hbm, ⟨1, _⟩ => ⟨S64x50000, .i32⟩
  | .hbm, ⟨2, _⟩ => ⟨S64x50000, .i32⟩
  | .hbm, ⟨3, _⟩ => ⟨S64x50000, .i32⟩
  | .hbm, ⟨4, _⟩ => ⟨S64x50000, .i32⟩
  | .hbm, ⟨5, _⟩ => ⟨S64x50000, .f32⟩
  | .hbm, ⟨6, _⟩ => ⟨S64x512x512, .f32⟩
  | .hbm, ⟨7, _⟩ => ⟨S64x512x512, .bf16⟩
  | .hbm, ⟨8, _⟩ => ⟨S64x512x512, .f32⟩
  | .hbm, ⟨9, _⟩ => ⟨S64x512x512, .f32⟩
  | .hbm, ⟨10, _⟩ => ⟨S64x512x512, .bf16⟩
  | .hbm, ⟨11, _⟩ => ⟨S_, .i32⟩
  | .hbm, ⟨12, _⟩ => ⟨S_, .i32⟩
  | .hbm, ⟨13, _⟩ => ⟨S64x50176, .i32⟩
  | .hbm, ⟨14, _⟩ => ⟨S64x49x1x1024, .i32⟩
  | .hbm, ⟨15, _⟩ => ⟨S_, .i32⟩
  | .hbm, ⟨16, _⟩ => ⟨S_, .i32⟩
  | .hbm, ⟨17, _⟩ => ⟨S64x50176, .i32⟩
  | .hbm, ⟨18, _⟩ => ⟨S64x49x1x1024, .i32⟩
  | .hbm, ⟨19, _⟩ => ⟨S_, .i32⟩
  | .hbm, ⟨20, _⟩ => ⟨S_, .i32⟩
  | .hbm, ⟨21, _⟩ => ⟨S64x50176, .i32⟩
  | .hbm, ⟨22, _⟩ => ⟨S64x49x1x1024, .i32⟩
  | .hbm, ⟨23, _⟩ => ⟨S_, .i32⟩
  | .hbm, ⟨24, _⟩ => ⟨S_, .i32⟩
  | .hbm, ⟨25, _⟩ => ⟨S64x50176, .i32⟩
  | .hbm, ⟨26, _⟩ => ⟨S64x49x1x1024, .i32⟩
  | .hbm, ⟨27, _⟩ => ⟨S_, .i32⟩
  | .hbm, ⟨28, _⟩ => ⟨S_, .f32⟩
  | .hbm, ⟨29, _⟩ => ⟨S64x50176, .f32⟩
  | .hbm, ⟨30, _⟩ => ⟨S64x49x1x1024, .f32⟩
  | .hbm, ⟨31, _⟩ => ⟨S64x1x128, .f32⟩
  | .hbm, ⟨32, _⟩ => ⟨S64x1x1, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x1x1x1024, .i32⟩
  | .local _ .vmem, ⟨5, _⟩ => ⟨S1x1x1x1024, .i32⟩
  | .local _ .vmem, ⟨6, _⟩ => ⟨S1x1x1x1024, .i32⟩
  | .local _ .vmem, ⟨7, _⟩ => ⟨S1x1x1x1024, .i32⟩
  | .local _ .vmem, ⟨8, _⟩ => ⟨S1x1x1x1024, .i32⟩
  | .local _ .vmem, ⟨9, _⟩ => ⟨S1x1x1x1024, .i32⟩
  | .local _ .vmem, ⟨10, _⟩ => ⟨S1x1x1x1024, .i32⟩
  | .local _ .vmem, ⟨11, _⟩ => ⟨S1x1x1x1024, .i32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x128, .f32⟩
  | .local _ .vmem, ⟨15, _⟩ => ⟨S1x1x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_call4_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 49], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S64x1x512x512_S64x512x512 : S64x1x512x512.ShapeCasts S64x512x512
  bitsLt_bf16_f32 : FTy.bits .bf16 < FTy.bits .f32
  pads_S64x50000_S64x50176_000_01760 : S64x50000.Pads (![0, 0] : Fin 2 → Nat) ![0, 176] ![0, 0] S64x50176
  h_S_ : 0 < S_.numel
  shapeCasts_S64x50176_S64x49x1x1024 : S64x50176.ShapeCasts S64x49x1x1024
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x1x1x1024_S1x1x1x1024_0_0_0_0 : ∀ a, (![0, 0, 0, 0] : Fin 4 → Nat) a + S1x1x1x1024.size a ≤ S1x1x1x1024.size a
  h_S1x1x1x1024 : 0 < S1x1x1x1024.numel
  shapeCasts_S1x1x1x1024_S1024 : S1x1x1x1024.ShapeCasts S1024
  shapeCasts_S1024_S1024x1 : S1024.ShapeCasts S1024x1
  iota_S1024x512_d1_w32 : S1024x512.Iotas .tc 32 [1]
  broadcasts_S1024x1_S1024x512 : S1024x1.Broadcasts S1024x512
  natLt_1_32 : 1 < 32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S1024x512_S1024 : S1024x512.Reduces [1] S1024
  iota_S1x1024_d1_w32 : S1x1024.Iotas .tc 32 [1]
  shapeCasts_S1x1024_S1024 : S1x1024.ShapeCasts S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  slices_S64x1x128_S64x1x1_0_0_0 : S64x1x128.Slices ![0, 0, 0] S64x1x1
  shapeCasts_S64x1x1_S64 : S64x1x1.ShapeCasts S64
  reducesTo_S64_S_d0 : S64.ReducesTo [0] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .bf16 = 32 ∨ (Rect.block (s := S64x512x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .bf16 = 32 ∨ (Rect.block (s := S64x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1024.size a ≤ S64x49x1x1024.size a
  hwx0_2 : ∀ i : grid0.Coords, EltTy.bits .i32 = 32 ∨ (Rect.block (s := S64x49x1x1024) S1x1x1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1024.size a ≤ S64x49x1x1024.size a
  hwx0_3 : ∀ i : grid0.Coords, EltTy.bits .i32 = 32 ∨ (Rect.block (s := S64x49x1x1024) S1x1x1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x1024.size a ≤ S64x49x1x1024.size a
  hwx0_4 : ∀ i : grid0.Coords, EltTy.bits .i32 = 32 ∨ (Rect.block (s := S64x49x1x1024) S1x1x1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x1024.size a ≤ S64x49x1x1024.size a
  hwx0_5 : ∀ i : grid0.Coords, EltTy.bits .i32 = 32 ∨ (Rect.block (s := S64x49x1x1024) S1x1x1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1x1024.size a ≤ S64x49x1x1024.size a
  hwx0_6 : ∀ i : grid0.Coords, EltTy.bits .f32 = 32 ∨ (Rect.block (s := S64x49x1x1024) S1x1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S64x1x128.size a
  hwx0_7 : ∀ i : grid0.Coords, EltTy.bits .f32 = 32 ∨ (Rect.block (s := S64x1x128) S1x1x128.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x50000 : Shape := ⟨2, ![64, 50000]⟩
abbrev S64x512x512 : Shape := ⟨3, ![64, 512, 512]⟩
abbrev S64 : Shape := ⟨1, ![64]⟩
abbrev S64x1 : Shape := ⟨2, ![64, 1]⟩
abbrev S_ : Shape := ⟨0, ![]⟩
abbrev S64x50000x1 : Shape := ⟨3, ![64, 50000, 1]⟩
abbrev S64x50000x3 : Shape := ⟨3, ![64, 50000, 3]⟩

abbrev nBuf : Space → Nat
  | .hbm => 80
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x50000, .i32⟩
  | .hbm, ⟨2, _⟩ => ⟨S64x50000, .i32⟩
  | .hbm, ⟨3, _⟩ => ⟨S64x50000, .i32⟩
  | .hbm, ⟨4, _⟩ => ⟨S64x50000, .i32⟩
  | .hbm, ⟨5, _⟩ => ⟨S64x50000, .f32⟩
  | .hbm, ⟨6, _⟩ => ⟨S64x512x512, .f32⟩
  | .hbm, ⟨7, _⟩ => ⟨S64, .i32⟩
  | .hbm, ⟨8, _⟩ => ⟨S64x1, .i32⟩
  | .hbm, ⟨9, _⟩ => ⟨S_, .i32⟩
  | .hbm, ⟨10, _⟩ => ⟨S64x1, .i32⟩
  | .hbm, ⟨11, _⟩ => ⟨S64x1, .i1⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S64x1, .i32⟩
  | .hbm, ⟨16, _⟩ => ⟨S_, .i32⟩
  | .hbm, ⟨17, _⟩ => ⟨S64x50000, .i32⟩
  | .hbm, ⟨18, _⟩ => ⟨S64x50000, .i1⟩
  | .hbm, ⟨19, _⟩ => ⟨S_, .i32⟩
  | .hbm, ⟨20, _⟩ => ⟨S64x50000, .i32⟩
  | .hbm, ⟨21, _⟩ => ⟨S64x50000, .i32⟩
  | .hbm, ⟨22, _⟩ => ⟨S64x50000, .i32⟩
  | .hbm, ⟨23, _⟩ => ⟨S_, .i32⟩
  | .hbm, ⟨24, _⟩ => ⟨S64x50000, .i32⟩
  | .hbm, ⟨25, _⟩ => ⟨S64x50000, .i1⟩
  | .hbm, ⟨26, _⟩ => ⟨S_, .i32⟩
  | .hbm, ⟨27, _⟩ => ⟨S64x50000, .i32⟩
  | .hbm, ⟨28, _⟩ => ⟨S64x50000, .i32⟩
  | .hbm, ⟨29, _⟩ => ⟨S64x50000, .i32⟩
  | .hbm, ⟨30, _⟩ => ⟨S64x50000, .i32⟩
  | .hbm, ⟨31, _⟩ => ⟨S64x50000x1, .i32⟩
  | .hbm, ⟨32, _⟩ => ⟨S64x50000x1, .i32⟩
  | .hbm, ⟨33, _⟩ => ⟨S64x50000x1, .i32⟩
  | .hbm, ⟨34, _⟩ => ⟨S64x50000x3, .i32⟩
  | .hbm, ⟨35, _⟩ => ⟨S64x50000, .f32⟩
  | .hbm, ⟨36, _⟩ => ⟨S_, .i32⟩
  | .hbm, ⟨37, _⟩ => ⟨S64x1, .i32⟩
  | .hbm, ⟨38, _⟩ => ⟨S64x1, .i1⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x50000, .i32⟩
  | .hbm, ⟨45, _⟩ => ⟨S64x50000, .i1⟩
  | .hbm, ⟨46, _⟩ => ⟨S_, .i32⟩
  | .hbm, ⟨47, _⟩ => ⟨S64x50000, .i32⟩
  | .hbm, ⟨48, _⟩ => ⟨S64x50000, .i32⟩
  | .hbm, ⟨49, _⟩ => ⟨S64x50000, .i32⟩
  | .hbm, ⟨50, _⟩ => ⟨S_, .i32⟩
  | .hbm, ⟨51, _⟩ => ⟨S64x50000, .i32⟩
  | .hbm, ⟨52, _⟩ => ⟨S64x50000, .i1⟩
  | .hbm, ⟨53, _⟩ => ⟨S_, .i32⟩
  | .hbm, ⟨54, _⟩ => ⟨S64x50000, .i32⟩
  | .hbm, ⟨55, _⟩ => ⟨S64x50000, .i32⟩
  | .hbm, ⟨56, _⟩ => ⟨S64x50000, .i32⟩
  | .hbm, ⟨57, _⟩ => ⟨S64x50000, .i32⟩
  | .hbm, ⟨58, _⟩ => ⟨S64x50000x1, .i32⟩
  | .hbm, ⟨59, _⟩ => ⟨S64x50000x1, .i32⟩
  | .hbm, ⟨60, _⟩ => ⟨S64x50000x1, .i32⟩
  | .hbm, ⟨61, _⟩ => ⟨S64x50000x3, .i32⟩
  | .hbm, ⟨62, _⟩ => ⟨S64x50000, .f32⟩
  | .hbm, ⟨63, _⟩ => ⟨S64x50000, .f32⟩
  | .hbm, ⟨64, _⟩ => ⟨S64x50000, .f32⟩
  | .hbm, ⟨65, _⟩ => ⟨S64x50000, .f32⟩
  | .hbm, ⟨66, _⟩ => ⟨S64x50000, .f32⟩
  | .hbm, ⟨67, _⟩ => ⟨S64x50000, .f32⟩
  | .hbm, ⟨68, _⟩ => ⟨S64x50000, .f32⟩
  | .hbm, ⟨69, _⟩ => ⟨S64x50000, .f32⟩
  | .hbm, ⟨70, _⟩ => ⟨S_, .f32⟩
  | .hbm, ⟨71, _⟩ => ⟨S64x50000, .f32⟩
  | .hbm, ⟨72, _⟩ => ⟨S64x50000, .f32⟩
  | .hbm, ⟨73, _⟩ => ⟨S64x50000, .f32⟩
  | .hbm, ⟨74, _⟩ => ⟨S64x50000, .f32⟩
  | .hbm, ⟨75, _⟩ => ⟨S64x50000, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  shapeCasts_S64x1x512x512_S64x512x512 : S64x1x512x512.ShapeCasts S64x512x512
  bcast_S64_S64x1_0 : S64.BroadcastsInDim S64x1 (![0] : Fin 1 → Fin S64x1.rank)
  bcast_S_S64x1 : S_.BroadcastsInDim S64x1 (![] : Fin 0 → Fin S64x1.rank)
  bcast_S_S64x50000 : S_.BroadcastsInDim S64x50000 (![] : Fin 0 → Fin S64x50000.rank)
  bcast_S64x1_S64x50000_0_1 : S64x1.BroadcastsInDim S64x50000 (![0, 1] : Fin 2 → Fin S64x50000.rank)
  bcast_S64x50000_S64x50000x1_0_1 : S64x50000.BroadcastsInDim S64x50000x1 (![0, 1] : Fin 2 → Fin S64x50000x1.rank)
  concatenates_S64x50000x1_S64x50000x1_S64x50000x1_S64x50000x3_d2 : Shape.Concatenates [S64x50000x1, S64x50000x1, S64x50000x1] S64x50000x3 2
  reducesTo_S64x50000_S_d0_1 : S64x50000.ReducesTo [0, 1] S_
  h_S_ : 0 < S_.numel
  gather_S64x512x512_S64x50000x3_S64x50000_n_012_n_n_012_2_111_wf : GatherDims.WF S64x512x512 S64x50000x3 S64x50000 [] [0, 1, 2] [] [0, 1, 2] [] 2 ![1, 1, 1]

variable [Facts₀]

def gather_S64x512x512_S64x50000x3_S64x50000_n_012_n_n_012_2_111 : GatherDims S64x512x512 S64x50000x3 S64x50000 where
  offsetDims := []
  collapsedSliceDims := [0, 1, 2]
  operandBatchingDims := []
  startIndicesBatchingDims := []
  startIndexMap := [0, 1, 2]
  indexVectorDim := 2
  sliceSizes := ![1, 1, 1]
  wf := gather_S64x512x512_S64x50000x3_S64x50000_n_012_n_n_012_2_111_wf

class Facts : Prop extends Facts₀ where

variable [Facts]
-- ==== Proof.PreDecoded.lean ====
/-
  What the precondition says, decoded: every image entry is a real number, and every coordinate
  word lies in [0, 512).
-/
import proofs.«428212_j77567109366401_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.GatherLoss

open Idealize.ShloMosaic

/-- The scalar shape has exactly one index: an index is a function out of the empty set of axes. -/
private instance scalarIdx_subsingleton : Subsingleton Cert.Pre_finite_inputs.S_.Idx :=
  ⟨fun _ _ => funext fun d => d.elim0⟩

/-- A 32-bit word that, read as a signed number, is at least 0 and below 512 is below 512 as a natural
    number: a word whose top bit is set reads negative, so the first comparison rules that out, and below
    2³¹ the signed and the unsigned readings agree. -/
private theorem toNat_lt_512_of_signed (w : BitVec 32) (h0 : IntOp.cmpi .sge w 0#32 = 1#1)
    (h1 : IntOp.cmpi .slt w 512#32 = 1#1) : w.toNat < 512 := by
  have hw : w.toNat < 2 ^ 31 := by
    by_contra hc
    have hneg : w.toInt < 0 := by
      rw [BitVec.toInt_eq_toNat_cond]
      have := w.isLt
      split <;> omega
    have hz : (0#32 : BitVec 32).toInt = 0 := by decide
    simp only [IntOp.cmpi, StableHlo.Predicate.ofBool_eq_one_iff, BitVec.sle, decide_eq_true_eq, hz] at h0
    omega
  have h512 : (512#32 : BitVec 32).toNat < 2 ^ 31 := by decide
  have := (StableHlo.Predicate.slt_iff_toNat hw h512).1 h1
  have e : (512#32 : BitVec 32).toNat = 512 := by decide
  omega

/-- An extended real whose absolute value max v (−v) is strictly below the f32 pattern of +∞ is a real
    number: the pattern denotes ⊤, and both ⊤ and ⊥ have absolute value ⊤. -/
private theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction v using EReal.rec with
  | bot => simp at h
  | coe r => exact ⟨r, rfl⟩
  | top => simp at h

section
variable [Cert.Pre_finite_inputs.Facts]
open Cert.Pre_finite_inputs Cert.Pre_finite_inputs.Facts

/-- One coordinate array: if "all entries ≥ 0" and "all entries < 512" (signed, against broadcast scalar
    constants, each folded by "and" over both axes) are both true, every entry is below 512. -/
private theorem coord_lt_512 (a : IVec S64x50000 32)
    (hge : Host.reduce IntOp.andi (cmpi .sge a (broadcastInDim S64x50000 ![] bcast_S_S64x50000 (constantI S_ 32 0#32)))
      (constantI S_ 1 1#1) reducesTo_S64x50000_S_d0_1 h_S_ ValueIdx.ix0 = 1#1)
    (hlt : Host.reduce IntOp.andi (cmpi .slt a (broadcastInDim S64x50000 ![] bcast_S_S64x50000 (constantI S_ 32 512#32)))
      (constantI S_ 1 1#1) reducesTo_S64x50000_S_d0_1 h_S_ ValueIdx.ix0 = 1#1)
    (i : S64x50000.Idx) : (a i).toNat < 512 :=
  toNat_lt_512_of_signed (a i) (Host.reduce_andi_all _ _ _ _ _ hge i) (Host.reduce_andi_all _ _ _ _ _ hlt i)

end

/-- The precondition, read: the image is finite everywhere and the four coordinate arrays are in range. -/
theorem pre_decoded [Cert.Pre_finite_inputs.Facts]
    (x : FVec Ideal Cert.Pre_finite_inputs.S64x1x512x512 .f32)
    (xa ya xb yb : IVec Cert.Pre_finite_inputs.S64x50000 32)
    (gt : FVec Ideal Cert.Pre_finite_inputs.S64x50000 .f32)
    (h : Cert.Pre_finite_inputs.fn (F := Ideal) x xa ya xb yb gt = fun _ => 1#1) :
    (∀ i, ∃ r : ℝ, x i = (r : EReal))
    ∧ (∀ i, (xa i).toNat < 512) ∧ (∀ i, (ya i).toNat < 512)
    ∧ (∀ i, (xb i).toNat < 512) ∧ (∀ i, (yb i).toNat < 512) := by
  have h0 := congrFun h ValueIdx.ix0
  unfold Cert.Pre_finite_inputs.fn Cert.Pre_finite_inputs.fn_part1 Cert.Pre_finite_inputs.fn_part2 at h0
  simp only [andi, IntOp.andi_eq_one] at h0
  obtain ⟨⟨⟨⟨⟨hx, -⟩, hxa0, hxa1⟩, hya0, hya1⟩, hxb0, hxb1⟩, hyb0, hyb1⟩ := h0
  refine ⟨fun i => ?_, coord_lt_512 xa hxa0 hxa1, coord_lt_512 ya hya0 hya1, coord_lt_512 xb hxb0 hxb1,
    coord_lt_512 yb hyb0 hyb1⟩
  exact real_of_abs_lt_inf (x i) (Host.reduce_andi_all _ _ _ _ _ hx i)

end Cert.GatherLoss

end
-- ==== Proof.Pieces.lean ====
/-
  What each control case of the kernel body leaves in the output block, as a pure term of the
  blocks it loads: the tile's 1024 masked losses summed and added to every lane of what the
  block held (case B), or of the zero block the case has just stored (case A: the first tile
  of an image).
-/
import proofs.«428212_j77567109366401_3_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The tile's masked losses, one per lane, from the blocks the body loads at tile coordinate `r`. -/
abbrev tileLosses (r : BitVec 32) (x0 : Vec F S1x512x512 .bf16) (x1 : Vec F S1x512x512 .bf16) (x2 : Vec F S1x1x1x1024 .i32) (x3 : Vec F S1x1x1x1024 .i32) (x4 : Vec F S1x1x1x1024 .i32) (x5 : Vec F S1x1x1x1024 .i32) (x6 : Vec F S1x1x1x1024 .f32) : FVec F S1x1024 .f32 :=
  k0_pay7 r (k0_pay3 x3) (k0_pay4 x5) (k0_pay5 x2) (k0_pay6 x4) x0 x1 x6

/-- Case B (not the first tile of its image): the block's contents `xo7` gain the tile's sum. -/
theorem out_B (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x1x1x1024 .i32) (harg4 : arg4.IsWhole) (arg5 : Memref sig .tc .vmem S1x1x1x1024 .i32) (harg5 : arg5.IsWhole) (arg6 : Memref sig .tc .vmem S1x1x1x1024 .i32) (harg6 : arg6.IsWhole) (arg7 : Memref sig .tc .vmem S1x1x1x1024 .i32) (harg7 : arg7.IsWhole) (arg8 : Memref sig .tc .vmem S1x1x1x1024 .f32) (harg8 : arg8.IsWhole) (arg9 : Memref sig .tc .vmem S1x1x128 .f32) (harg9 : arg9.IsWhole) (hc0 : ¬cond0_0 i)
    (x0 : Vec F S1x512x512 .bf16) (x1 : Vec F S1x512x512 .bf16) (x2 : Vec F S1x1x1x1024 .i32) (x3 : Vec F S1x1x1x1024 .i32) (x4 : Vec F S1x1x1x1024 .i32) (x5 : Vec F S1x1x1x1024 .i32) (x6 : Vec F S1x1x1x1024 .f32) (xo7 : Vec F S1x1x128 .f32) :
    out0_B_7 c i arg2 harg2 arg3 harg3 arg4 harg4 arg5 harg5 arg6 harg6 arg7 harg7 arg8 harg8 arg9 harg9 hc0 x0 x1 x2 x3 x4 x5 x6 xo7
      = k0_pay1 (tileLosses (BitVec.ofNat 32 (i 1).val) x0 x1 x2 x3 x4 x5 x6) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1x512x512) hz3, View.ld_unit_zero (S := S1x1x1x1024) hz4, View.ld_unit_zero (S := S1x1x128) hz3]

/-- Case A (the first tile of an image): the zero block gains the tile's sum. -/
theorem out_A (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x1x1x1024 .i32) (harg4 : arg4.IsWhole) (arg5 : Memref sig .tc .vmem S1x1x1x1024 .i32) (harg5 : arg5.IsWhole) (arg6 : Memref sig .tc .vmem S1x1x1x1024 .i32) (harg6 : arg6.IsWhole) (arg7 : Memref sig .tc .vmem S1x1x1x1024 .i32) (harg7 : arg7.IsWhole) (arg8 : Memref sig .tc .vmem S1x1x1x1024 .f32) (harg8 : arg8.IsWhole) (arg9 : Memref sig .tc .vmem S1x1x128 .f32) (harg9 : arg9.IsWhole) (hc0 : cond0_0 i)
    (x0 : Vec F S1x512x512 .bf16) (x1 : Vec F S1x512x512 .bf16) (x2 : Vec F S1x1x1x1024 .i32) (x3 : Vec F S1x1x1x1024 .i32) (x4 : Vec F S1x1x1x1024 .i32) (x5 : Vec F S1x1x1x1024 .i32) (x6 : Vec F S1x1x1x1024 .f32) :
    out0_A_7 c i arg2 harg2 arg3 harg3 arg4 harg4 arg5 harg5 arg6 harg6 arg7 harg7 arg8 harg8 arg9 harg9 hc0 x0 x1 x2 x3 x4 x5 x6
      = k0_pay1 (tileLosses (BitVec.ofNat 32 (i 1).val) x0 x1 x2 x3 x4 x5 x6) (k0_pay2 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread,
    View.ld_unit_zero (S := S1x512x512) hz3, View.ld_unit_zero (S := S1x1x1x1024) hz4, View.ld_unit_zero (S := S1x1x128) hz3]

end Cert.KernelIdeal.Val

end
-- ==== Proof.Spec.lean ====
/-
  The mathematics both programs compute, stated once over plain functions of the six argument arrays
  (no program imported).

  x   : [64, 1, 512, 512]  a batch of one-channel depth images, extended reals
  xa, ya, xb, yb : [64, 50000]  pixel coordinates (32-bit words) of two points A, B per pair
  gt  : [64, 50000]  the ordinal relation of each pair

  For pair (b, p):  d = x[b, 0, ya, xa] - x[b, 0, yb, xb]  and
     loss = |g| * log1p (exp (-g * d)) + (1 - |g|) * d * d          (g = gt[b, p]),
  and the result is the sum of all 64 * 50000 losses divided by the literal 3.2e6.

  A coordinate word w is read as the pixel  w mod 512 : on the domain where 0 <= w < 512 (the only
  domain on which the two programs are compared) this is w itself.
-/
import Idealize.ShloMosaic.PureOps.Ideal
import Idealize.ShloMosaic.Lib.ValueIdx

noncomputable section

namespace Cert.GatherLoss

open Idealize.ShloMosaic Idealize.ShloMosaic.ValueIdx

abbrev SX : Shape := ⟨4, ![64, 1, 512, 512]⟩
abbrev SP : Shape := ⟨2, ![64, 50000]⟩

/-- The pixel a coordinate word names. -/
def pix (w : BitVec 32) : Fin 512 := ⟨w.toNat % 512, Nat.mod_lt _ (by decide)⟩

theorem pix_val_of_lt {w : BitVec 32} (h : w.toNat < 512) : (pix w).val = w.toNat := Nat.mod_eq_of_lt h

/-- The literal one, kept as its word: both programs carry the same word. -/
abbrev one32 : EReal := Ideal.ofBits .f32 0x3F800000#32
/-- The literal 3.2e6 = 64 * 50000, kept as its word. -/
abbrev count32 : EReal := Ideal.ofBits .f32 0x4A435000#32

/-- The loss of one pair: relation `g`, depth difference `d`. -/
def pairLoss (g d : EReal) : EReal :=
  max g (-g) * Ideal.log1p (Ideal.exp (-g * d)) + (one32 - max g (-g)) * d * d

/-- Image `b` at the pixel the words `(yw, xw)` name. -/
def depth (x : SX.Idx → EReal) (b : Fin 64) (yw xw : BitVec 32) : EReal :=
  x (ix4 b (0 : Fin 1) (pix yw) (pix xw))

/-- The loss of pair `p` of image `b`. -/
def pointLoss (x : SX.Idx → EReal) (xa ya xb yb : SP.Idx → BitVec 32) (gt : SP.Idx → EReal)
    (b : Fin 64) (p : Fin 50000) : EReal :=
  pairLoss (gt (ix2 b p))
    (depth x b (ya (ix2 b p)) (xa (ix2 b p)) - depth x b (yb (ix2 b p)) (xb (ix2 b p)))

/-- The mean loss: every pair's loss summed, over the literal count. -/
def meanLoss (x : SX.Idx → EReal) (xa ya xb yb : SP.Idx → BitVec 32) (gt : SP.Idx → EReal) : EReal :=
  Ideal.div (∑ b : Fin 64, ∑ p : Fin 50000, pointLoss x xa ya xb yb gt b p) count32

end Cert.GatherLoss

end
-- ==== Proof.Payload.lean ====
/-
  The kernel body's arithmetic, read at an index at the ideal instance: the one-hot row and column
  selectors, the selected image entry, and the tile's running sum.
-/
import proofs.«428212_j77567109366401_3_alg».proof.Proof.Gen.KernelIdeal.Skeleton
import proofs.«428212_j77567109366401_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.GatherLoss

/-- The word of lane `l` in a block of 1024 coordinate words. -/
abbrev lane (v : Vec Ideal S1x1x1x1024 .i32) (l : Fin 1024) : BitVec 32 := v (ix4 (0 : Fin 1) (0 : Fin 1) (0 : Fin 1) l)

/-- The tile's 1024 losses, summed along the lane axis of the `[1, 1024]` block into its one entry. -/
private theorem sum1024 (v76 : FVec Ideal S1x1024 .f32) (i : S1.Idx) :
    multiReduction (F := Ideal) .add [1] S1 v76 0x00000000#32 reduces_S1x1024_S1 (.inl rfl) rfl i
      = ∑ l : Fin 1024, v76 (ix2 (0 : Fin 1) l) := by
  refine (Ideal.multiReduction_add_single v76 0x00000000#32 reduces_S1x1024_S1 (.inl rfl) rfl i).trans ?_
  refine Finset.sum_congr rfl (fun l _ => congrArg v76 ?_)
  funext a
  match a with
  | ⟨0, _⟩ => exact Subsingleton.elim (α := Fin 1) _ _
  | ⟨1, _⟩ => rfl

/-- A one-bit comparison result widened to 32 bits and read as a number is 1 where it holds, 0 elsewhere. -/
private theorem bit_to_real (c : Bool) :
    (FloatOps.sitofp (F := Ideal) .f32 ((BitVec.ofBool c).setWidth 32) : EReal) = if c = true then 1 else 0 := by
  cases c
  · have e : (BitVec.ofBool false).setWidth 32 = 0#32 := by decide
    rw [e]
    show (((0#32 : BitVec 32).toInt : ℝ) : EReal) = _
    simp
  · have e : (BitVec.ofBool true).setWidth 32 = 1#32 := by decide
    have e1 : (1#32 : BitVec 32).toInt = 1 := by decide
    rw [e]
    show (((1#32 : BitVec 32).toInt : ℝ) : EReal) = _
    rw [e1]
    simp

/-- The block of coordinate words, viewed as a column and spread along the rows of 512, reads lane `l`'s word
    at every position `(l, h)`. -/
private theorem spread_apply (v : Vec Ideal S1x1x1x1024 .i32) (l : Fin 1024) (h : Fin 512) :
    broadcastTo S1024x512 (shapeCast S1024x1 (shapeCast S1024 v shapeCasts_S1x1x1x1024_S1024) shapeCasts_S1024_S1024x1)
        broadcasts_S1024x1_S1024x512 (ix2 l h) = lane v l := by
  refine (broadcastTo_apply _ _ (ix2 l h) (ix2 l (0 : Fin 1)) (fun a => ?_)).trans ?_
  · match a with
    | ⟨0, _⟩ => rfl
    | ⟨1, _⟩ => rfl
  refine (shapeCast_apply _ _ (ix2 l (0 : Fin 1)) (ix1 l) ?_).trans ?_
  · rw [Shape.rowMajor_val_one, Shape.rowMajor_val_two]
    show l.val = l.val * 1 + 0
    omega
  refine shapeCast_apply _ _ (ix1 l) (ix4 (0 : Fin 1) (0 : Fin 1) (0 : Fin 1) l) ?_
  rw [Shape.rowMajor_val_four, Shape.rowMajor_val_one]
  show ((0 * 1 + 0) * 1 + 0) * 1024 + l.val = l.val
  omega

/-- The column selector at `(l, h)`: one where position `h` is lane `l`'s word, zero elsewhere. -/
private theorem onehot_apply (v : Vec Ideal S1x1x1x1024 .i32) (l : Fin 1024) (h : Fin 512) :
    k0_pay5 (F := Ideal) v (ix2 l h) = if BitVec.ofNat 32 h.val = lane v l then 1 else 0 := by
  have hio : iota .tc S1024x512 32 [1] iota_S1024x512_d1_w32 (ix2 l h) = BitVec.ofNat 32 h.val :=
    iota_single_apply .tc S1024x512 32 1 iota_S1024x512_d1_w32 (ix2 l h)
  have key : ∀ a b : BitVec 32,
      (FloatOps.sitofp (F := Ideal) .f32 ((IntOp.cmpi .eq a b).setWidth 32) : EReal) = if a = b then 1 else 0 := by
    intro a b
    show (FloatOps.sitofp (F := Ideal) .f32 ((BitVec.ofBool (a == b)).setWidth 32) : EReal) = _
    rw [bit_to_real]
    simp
  show (FloatOps.sitofp (F := Ideal) .f32 ((IntOp.cmpi .eq (iota .tc S1024x512 32 [1] iota_S1024x512_d1_w32 (ix2 l h))
      (broadcastTo S1024x512 (shapeCast S1024x1 (shapeCast S1024 v shapeCasts_S1x1x1x1024_S1024) shapeCasts_S1024_S1024x1)
        broadcasts_S1024x1_S1024x512 (ix2 l h))).setWidth 32) : EReal) = _
  rw [hio, spread_apply, key]

/-- The two operand indices of the product at output position `(l, w)` and contraction position `h`:
    `(l, h)` on the left, `(h, w)` on the right. -/
private theorem lhs_axis0 (j : S1024x512.Idx) (k : dot_S1024x512_S512x512_S1024x512_1_0_0_1_n_n.contr.Idx) :
    (dot_S1024x512_S512x512_S1024x512_1_0_0_1_n_n.lhsIdx j k 0).val = (j 0).val := rfl
private theorem lhs_axis1 (j : S1024x512.Idx) (k : dot_S1024x512_S512x512_S1024x512_1_0_0_1_n_n.contr.Idx) :
    (dot_S1024x512_S512x512_S1024x512_1_0_0_1_n_n.lhsIdx j k 1).val = (k ⟨0, Nat.one_pos⟩).val :=
  dot_S1024x512_S512x512_S1024x512_1_0_0_1_n_n.lhsIdx_val_of_single rfl j k
private theorem rhs_axis0 (j : S1024x512.Idx) (k : dot_S1024x512_S512x512_S1024x512_1_0_0_1_n_n.contr.Idx) :
    (dot_S1024x512_S512x512_S1024x512_1_0_0_1_n_n.rhsIdx j k 0).val = (k ⟨0, Nat.one_pos⟩).val :=
  dot_S1024x512_S512x512_S1024x512_1_0_0_1_n_n.rhsIdx_val_of_single rfl j k
private theorem rhs_axis1 (j : S1024x512.Idx) (k : dot_S1024x512_S512x512_S1024x512_1_0_0_1_n_n.contr.Idx) :
    (dot_S1024x512_S512x512_S1024x512_1_0_0_1_n_n.rhsIdx j k 1).val = (j 1).val := rfl

private theorem lhsIdx_eq (l : Fin 1024) (w h : Fin 512) :
    dot_S1024x512_S512x512_S1024x512_1_0_0_1_n_n.lhsIdx (ix2 l w)
        ((contrEquiv1 dot_S1024x512_S512x512_S1024x512_1_0_0_1_n_n 512 rfl rfl).symm h) = ix2 l h := by
  funext a
  match a with
  | ⟨0, _⟩ => exact Fin.ext (lhs_axis0 _ _)
  | ⟨1, _⟩ => exact Fin.ext ((lhs_axis1 _ _).trans (contrEquiv1_symm_val _ 512 rfl rfl h))

private theorem rhsIdx_eq (l : Fin 1024) (w h : Fin 512) :
    dot_S1024x512_S512x512_S1024x512_1_0_0_1_n_n.rhsIdx (ix2 l w)
        ((contrEquiv1 dot_S1024x512_S512x512_S1024x512_1_0_0_1_n_n 512 rfl rfl).symm h) = ix2 h w := by
  funext a
  match a with
  | ⟨0, _⟩ => exact Fin.ext ((rhs_axis0 _ _).trans (contrEquiv1_symm_val _ 512 rfl rfl h))
  | ⟨1, _⟩ => exact Fin.ext (rhs_axis1 _ _)

/-- The product into the zero block, read at `(l, w)`: the sum over the 512 contraction positions. -/
private theorem matmul_apply512 (P : FVec Ideal S1024x512 .bf16) (X : FVec Ideal S512x512 .bf16) (l : Fin 1024) (w : Fin 512) :
    matmul dot_S1024x512_S512x512_S1024x512_1_0_0_1_n_n none P X (constant S1024x512 .f32 0x00000000#32) (ix2 l w)
      = ∑ h : Fin 512, P (ix2 l h) * X (ix2 h w) := by
  refine (Ideal.matmul_constant_zero_apply dot_S1024x512_S512x512_S1024x512_1_0_0_1_n_n none P X (ix2 l w)).trans ?_
  refine (Equiv.sum_comp (contrEquiv1 dot_S1024x512_S512x512_S1024x512_1_0_0_1_n_n 512 rfl rfl).symm _).symm.trans ?_
  refine Finset.sum_congr rfl (fun h _ => ?_)
  rw [lhsIdx_eq, rhsIdx_eq]

/-- For a word below 512, position `h` carries that word exactly when `h` is the pixel it names. -/
private theorem word_eq_iff (w : BitVec 32) (hw : w.toNat < 512) (h : Fin 512) :
    BitVec.ofNat 32 h.val = w ↔ h = pix w := by
  constructor
  · intro e
    apply Fin.ext
    rw [pix_val_of_lt hw, ← e, BitVec.toNat_ofNat]
    have := h.isLt
    omega
  · intro e
    apply BitVec.eq_of_toNat_eq
    rw [BitVec.toNat_ofNat, e, pix_val_of_lt hw]
    omega

/-- A sum against a one-hot selector picks the selected term. -/
private theorem sum_onehot_mul (w : BitVec 32) (hw : w.toNat < 512) (g : Fin 512 → EReal) :
    ∑ h : Fin 512, (if BitVec.ofNat 32 h.val = w then (1 : EReal) else 0) * g h = g (pix w) := by
  have e : ∀ h : Fin 512,
      (if BitVec.ofNat 32 h.val = w then (1 : EReal) else 0) * g h = if h = pix w then g h else 0 := by
    intro h
    by_cases c : h = pix w
    · rw [if_pos ((word_eq_iff w hw h).mpr c), if_pos c, one_mul]
    · rw [if_neg (fun c' => c ((word_eq_iff w hw h).mp c')), if_neg c, zero_mul]
  rw [Finset.sum_congr rfl (fun h _ => e h), Finset.sum_ite_eq' Finset.univ (pix w) g, if_pos (Finset.mem_univ _)]

/-- The gather for any row selector `P` and column selector `Q` that are, on lane `l`, one-hot at the words
    `yw` and `xw`: the row selector picks row `pix yw` of the image block (whose `lo` half is zero), the column
    selector and the sum along the row pick column `pix xw` of it. -/
private theorem gather_apply (P : FVec Ideal S1024x512 .bf16) (Q : FVec Ideal S1024x512 .f32) (yw xw : BitVec 32)
    (hi lo : FVec Ideal S1x512x512 .bf16) (l : Fin 1024)
    (hP : ∀ h : Fin 512, P (ix2 l h) = if BitVec.ofNat 32 h.val = yw then 1 else 0)
    (hQ : ∀ w : Fin 512, Q (ix2 l w) = if BitVec.ofNat 32 w.val = xw then 1 else 0)
    (hy : yw.toNat < 512) (hx : xw.toNat < 512)
    (hlo : ∀ (h w : Fin 512), lo (ix3 (0 : Fin 1) h w) = 0) :
    multiReduction (F := Ideal) .add [1] S1024
        (mulf (addf
            (matmul dot_S1024x512_S512x512_S1024x512_1_0_0_1_n_n none P (shapeCast S512x512 hi shapeCasts_S1x512x512_S512x512) (constant S1024x512 .f32 0x00000000#32))
            (matmul dot_S1024x512_S512x512_S1024x512_1_0_0_1_n_n none P (shapeCast S512x512 lo shapeCasts_S1x512x512_S512x512) (constant S1024x512 .f32 0x00000000#32)))
          Q)
        0x00000000#32 reduces_S1024x512_S1024 (.inl rfl) rfl (ix1 l)
      = hi (ix3 (0 : Fin 1) (pix yw) (pix xw)) := by
  -- the row the selector picks out of one half of the image block
  have row : ∀ (X : FVec Ideal S1x512x512 .bf16) (w : Fin 512),
      matmul dot_S1024x512_S512x512_S1024x512_1_0_0_1_n_n none P (shapeCast S512x512 X shapeCasts_S1x512x512_S512x512)
          (constant S1024x512 .f32 0x00000000#32) (ix2 l w)
        = X (ix3 (0 : Fin 1) (pix yw) w) := by
    intro X w
    have e : ∀ h : Fin 512, P (ix2 l h) * shapeCast S512x512 X shapeCasts_S1x512x512_S512x512 (ix2 h w)
        = (if BitVec.ofNat 32 h.val = yw then (1 : EReal) else 0) * X (ix3 (0 : Fin 1) h w) := by
      intro h
      rw [hP h, shapeCast_1ab_ab_apply]
    rw [matmul_apply512, Finset.sum_congr rfl (fun h _ => e h)]
    exact sum_onehot_mul yw hy (fun h => X (ix3 (0 : Fin 1) h w))
  -- one term of the sum along the row
  have term : ∀ w : Fin 512,
      (mulf (addf
            (matmul dot_S1024x512_S512x512_S1024x512_1_0_0_1_n_n none P (shapeCast S512x512 hi shapeCasts_S1x512x512_S512x512) (constant S1024x512 .f32 0x00000000#32))
            (matmul dot_S1024x512_S512x512_S1024x512_1_0_0_1_n_n none P (shapeCast S512x512 lo shapeCasts_S1x512x512_S512x512) (constant S1024x512 .f32 0x00000000#32)))
          Q) (reduces_S1024x512_S1024.lift (ix1 l) w)
        = (if BitVec.ofNat 32 w.val = xw then (1 : EReal) else 0) * hi (ix3 (0 : Fin 1) (pix yw) w) := by
    intro w
    have hl : reduces_S1024x512_S1024.lift (ix1 l) w = ix2 l w := by
      funext a
      match a with
      | ⟨0, _⟩ => rfl
      | ⟨1, _⟩ => rfl
    rw [hl]
    show (matmul dot_S1024x512_S512x512_S1024x512_1_0_0_1_n_n none P (shapeCast S512x512 hi shapeCasts_S1x512x512_S512x512) (constant S1024x512 .f32 0x00000000#32) (ix2 l w)
        + matmul dot_S1024x512_S512x512_S1024x512_1_0_0_1_n_n none P (shapeCast S512x512 lo shapeCasts_S1x512x512_S512x512) (constant S1024x512 .f32 0x00000000#32) (ix2 l w))
        * Q (ix2 l w) = _
    rw [row hi w, row lo w, hlo, add_zero, hQ w, mul_comm]
  refine (Ideal.multiReduction_add_single _ 0x00000000#32 reduces_S1024x512_S1024 (.inl rfl) rfl (ix1 l)).trans ?_
  refine (Finset.sum_congr rfl (fun w _ => term w)).trans ?_
  exact sum_onehot_mul xw hx (fun w => hi (ix3 (0 : Fin 1) (pix yw) w))

/-- What the accumulating store writes: every lane of the output block gains the sum of the tile's 1024 losses. -/
theorem pay1_apply (v76 : FVec Ideal S1x1024 .f32) (v80 : Vec Ideal S1x1x128 .f32) (j : S1x1x128.Idx) :
    k0_pay1 (F := Ideal) v76 v80 j = v80 j + ∑ l : Fin 1024, v76 (ix2 (0 : Fin 1) l) := by
  have h1 : shapeCast S1x1x128 (shapeCast S1x128 v80 shapeCasts_S1x1x128_S1x128) shapeCasts_S1x128_S1x1x128 j = v80 j :=
    congrFun (shapeCast_shapeCast v80 shapeCasts_S1x1x128_S1x128 shapeCasts_S1x128_S1x1x128) j
  have key : ∀ i : S1.Idx,
      shapeCast S1x1x128 (shapeCast S1x128 v80 shapeCasts_S1x1x128_S1x128) shapeCasts_S1x128_S1x1x128 j
        + multiReduction (F := Ideal) .add [1] S1 v76 0x00000000#32 reduces_S1x1024_S1 (.inl rfl) rfl i
      = v80 j + ∑ l : Fin 1024, v76 (ix2 (0 : Fin 1) l) := fun i => by rw [h1, sum1024]
  exact key _

/-- What the reset stores: zero everywhere. -/
theorem pay2_apply (j : S1x1x128.Idx) : (k0_pay2 (F := Ideal)) j = 0 := by
  show Ideal.ofBits .f32 0x00000000#32 = 0
  exact Ideal.ofBits_zero_f32

/-- The image entry the two selectors pick for lane `l`: the row selector of the word `yv l` applied to the
    image block (its two halves `hi` and `lo` added), then the column selector of the word `xv l` and the sum
    along the row. With both words in [0, 512) and the `lo` half zero it is `hi` at that pixel. Stated for
    the A point's selectors; -/
theorem gatherA_apply (yv xv : Vec Ideal S1x1x1x1024 .i32) (hi lo : FVec Ideal S1x512x512 .bf16) (l : Fin 1024)
    (hy : (lane yv l).toNat < 512) (hx : (lane xv l).toNat < 512)
    (hlo : ∀ (h w : Fin 512), lo (ix3 (0 : Fin 1) h w) = 0) :
    multiReduction (F := Ideal) .add [1] S1024
        (mulf (addf
            (matmul dot_S1024x512_S512x512_S1024x512_1_0_0_1_n_n none (k0_pay3 yv) (shapeCast S512x512 hi shapeCasts_S1x512x512_S512x512) (constant S1024x512 .f32 0x00000000#32))
            (matmul dot_S1024x512_S512x512_S1024x512_1_0_0_1_n_n none (k0_pay3 yv) (shapeCast S512x512 lo shapeCasts_S1x512x512_S512x512) (constant S1024x512 .f32 0x00000000#32)))
          (k0_pay5 xv))
        0x00000000#32 reduces_S1024x512_S1024 (.inl rfl) rfl (ix1 l)
      = hi (ix3 (0 : Fin 1) (pix (lane yv l)) (pix (lane xv l))) := by
  exact gather_apply (k0_pay3 yv) (k0_pay5 xv) (lane yv l) (lane xv l) hi lo l
    (fun h => onehot_apply yv l h) (fun w => onehot_apply xv l w) hy hx hlo

/-- and for the B point's (the same functions under other names). -/
theorem gatherB_apply (yv xv : Vec Ideal S1x1x1x1024 .i32) (hi lo : FVec Ideal S1x512x512 .bf16) (l : Fin 1024)
    (hy : (lane yv l).toNat < 512) (hx : (lane xv l).toNat < 512)
    (hlo : ∀ (h w : Fin 512), lo (ix3 (0 : Fin 1) h w) = 0) :
    multiReduction (F := Ideal) .add [1] S1024
        (mulf (addf
            (matmul dot_S1024x512_S512x512_S1024x512_1_0_0_1_n_n none (k0_pay4 yv) (shapeCast S512x512 hi shapeCasts_S1x512x512_S512x512) (constant S1024x512 .f32 0x00000000#32))
            (matmul dot_S1024x512_S512x512_S1024x512_1_0_0_1_n_n none (k0_pay4 yv) (shapeCast S512x512 lo shapeCasts_S1x512x512_S512x512) (constant S1024x512 .f32 0x00000000#32)))
          (k0_pay6 xv))
        0x00000000#32 reduces_S1024x512_S1024 (.inl rfl) rfl (ix1 l)
      = hi (ix3 (0 : Fin 1) (pix (lane yv l)) (pix (lane xv l))) := by
  exact gather_apply (k0_pay4 yv) (k0_pay6 xv) (lane yv l) (lane xv l) hi lo l
    (fun h => onehot_apply yv l h) (fun w => onehot_apply xv l w) hy hx hlo

end Cert.KernelIdeal.Val

end
-- ==== Proof.Losses.lean ====
/-
  One lane of a tile: the body's masked loss is zero past the 50000th point, and before it is the
  specification's pair loss of the two selected image entries.
-/
import proofs.«428212_j77567109366401_3_alg».proof.Proof.Payload
import Idealize.ShloMosaic.Lib.StableHlo.Predicate

noncomputable section

namespace Cert.KernelIdeal.Val

open Idealize.ShloMosaic Idealize.ShloMosaic.ValueIdx Cert.KernelIdeal Cert.KernelIdeal.Gen Cert.GatherLoss

/-- The relation block read as a vector of 1024 lanes: lane `l` is the block's entry `(0, 0, 0, l)`. -/
private theorem gtLane (g : FVec Ideal S1x1x1x1024 .f32) (l : Fin 1024) :
    shapeCast S1024 g shapeCasts_S1x1x1x1024_S1024 (ix1 l) = g (ix4 (0 : Fin 1) (0 : Fin 1) (0 : Fin 1) l) :=
  shapeCast_apply g _ _ _ (by
    rw [Shape.rowMajor_val_four, Shape.rowMajor_val_one]
    show ((0 * 1 + 0) * 1 + 0) * 1024 + l.val = l.val
    omega)

/-- The lane counter: lane `l` of the row of lane numbers is the word of `l`. -/
private theorem iotaLane (l : Fin 1024) :
    shapeCast S1024 (iota .tc S1x1024 32 [1] iota_S1x1024_d1_w32) shapeCasts_S1x1024_S1024 (ix1 l) = BitVec.ofNat 32 l.val := by
  rw [shapeCast_1a_a_apply]
  exact iota_single_apply .tc S1x1024 32 1 iota_S1x1024_d1_w32 (ix2 (0 : Fin 1) l)

/-- The point number of lane `l` of tile `r`, as a word: `r * 1024 + l` does not wrap for `r < 49`. -/
private theorem pointWord_toNat (r : BitVec 32) (l : Fin 1024) (hr : r.toNat < 49) :
    (IntOp.addi (Scalar.muli r 1024#32) (BitVec.ofNat 32 l.val)).toNat = r.toNat * 1024 + l.val := by
  have hl := l.isLt
  unfold IntOp.addi Scalar.muli IntOp.muli
  rw [BitVec.toNat_add, BitVec.toNat_mul, BitVec.toNat_ofNat]
  show ((r.toNat * 1024) % 2 ^ 32 + l.val % 2 ^ 32) % 2 ^ 32 = _
  omega

/-- The validity bit of lane `l` of tile `r`: set exactly when the point number is below 50000. -/
private theorem maskBit (r : BitVec 32) (l : Fin 1024) (hr : r.toNat < 49) :
    cmpi .slt (addi (broadcast S1024 (Scalar.muli r 1024#32))
        (shapeCast S1024 (iota .tc S1x1024 32 [1] iota_S1x1024_d1_w32) shapeCasts_S1x1024_S1024))
      (broadcast S1024 50000#32) (ix1 l) = 1#1 ↔ r.toNat * 1024 + l.val < 50000 := by
  have hl := l.isLt
  show IntOp.cmpi .slt (IntOp.addi (Scalar.muli r 1024#32)
      (shapeCast S1024 (iota .tc S1x1024 32 [1] iota_S1x1024_d1_w32) shapeCasts_S1x1024_S1024 (ix1 l))) 50000#32 = 1#1 ↔ _
  rw [iotaLane]
  have hw := pointWord_toNat r l hr
  rw [StableHlo.Predicate.slt_iff_toNat (by rw [hw]; omega) (by decide), hw]
  rfl

/-- The loss chain of one lane, as a function of the relation and the difference: the specification's pair loss.
    (The kernel writes `-g` as `0 - g`.) -/
private theorem lossChain (gv dv : FVec Ideal S1024 .f32) (i : S1024.Idx) :
    addf (mulf (absf gv) (log1p (exp (mulf (subf (broadcast S1024 (FloatOps.ofBits (F := Ideal) .f32 0x00000000#32)) gv) dv))))
        (mulf (mulf (subf (broadcast S1024 (FloatOps.ofBits (F := Ideal) .f32 0x3F800000#32)) (absf gv)) dv) dv) i
      = pairLoss (gv i) (dv i) := by
  show max (gv i) (-(gv i)) * Ideal.log1p (Ideal.exp ((Ideal.ofBits .f32 0x00000000#32 - gv i) * dv i))
      + ((Ideal.ofBits .f32 0x3F800000#32 - max (gv i) (-(gv i))) * dv i) * dv i = _
  rw [Ideal.ofBits_zero_f32, zero_sub]
  rfl

/-- Past the last point the lane is masked: zero, whatever the blocks hold. (`r` is the tile's coordinate word,
    a number below 49, so `r * 1024 + l` does not wrap.) -/
theorem tileLoss_masked (r : BitVec 32) (hi lo : FVec Ideal S1x512x512 .bf16) (xa ya xb yb : Vec Ideal S1x1x1x1024 .i32)
    (g : FVec Ideal S1x1x1x1024 .f32) (l : Fin 1024) (hr : r.toNat < 49) (hm : ¬ r.toNat * 1024 + l.val < 50000) :
    k0_pay7 (F := Ideal) r (k0_pay3 ya) (k0_pay4 yb) (k0_pay5 xa) (k0_pay6 xb) hi lo g (ix2 (0 : Fin 1) l) = 0 := by
  -- the value at lane `l` is a select on the validity bit; the bit is clear, so it is the broadcast zero word
  unfold k0_pay7
  rw [shapeCast_a_1a_apply, select_apply, eq_zero_of_ne_one (fun h => hm ((maskBit r l hr).mp h)), select_zero,
    broadcast_apply]
  exact Ideal.ofBits_zero_f32

/-- At a point below the 50000th, with the four coordinate words of the lane in [0, 512) and the remainder block
    zero: the pair loss of the relation `g l` and the difference of the image block at the two pixels. -/
theorem tileLoss_live (r : BitVec 32) (hi lo : FVec Ideal S1x512x512 .bf16) (xa ya xb yb : Vec Ideal S1x1x1x1024 .i32)
    (g : FVec Ideal S1x1x1x1024 .f32) (l : Fin 1024) (hr : r.toNat < 49) (hm : r.toNat * 1024 + l.val < 50000)
    (hxa : (lane xa l).toNat < 512) (hya : (lane ya l).toNat < 512)
    (hxb : (lane xb l).toNat < 512) (hyb : (lane yb l).toNat < 512)
    (hlo : ∀ (h w : Fin 512), lo (ix3 (0 : Fin 1) h w) = 0) :
    k0_pay7 (F := Ideal) r (k0_pay3 ya) (k0_pay4 yb) (k0_pay5 xa) (k0_pay6 xb) hi lo g (ix2 (0 : Fin 1) l)
      = pairLoss (g (ix4 (0 : Fin 1) (0 : Fin 1) (0 : Fin 1) l))
          (hi (ix3 (0 : Fin 1) (pix (lane ya l)) (pix (lane xa l))) - hi (ix3 (0 : Fin 1) (pix (lane yb l)) (pix (lane xb l)))) := by
  -- the validity bit is set, so the value at lane `l` is the loss chain there: the pair loss of the relation's
  -- lane and of the difference of the two selected entries, each of which is the image block at its pixel
  unfold k0_pay7
  rw [shapeCast_a_1a_apply, select_apply, (maskBit r l hr).mpr hm, select_one]
  refine (lossChain _ _ _).trans ?_
  exact congrArg₂ pairLoss (gtLane g l)
    (congrArg₂ (· - ·) (gatherA_apply ya xa hi lo l hya hxa hlo) (gatherB_apply yb xb hi lo l hyb hxb hlo))

end Cert.KernelIdeal.Val

end
-- ==== Proof.Blocks.lean ====
/-
  The arrays the pipelined region reads, as functions of the program's six arguments, and each
  window's block at a grid point read at an index.

  Grid point t = 49 * b + r is tile r of image b. The image windows (the rounded image and the
  rounding remainder, which at the ideal instance are the image itself and x - x) hold image b;
  the five point windows hold lanes r * 1024 .. r * 1024 + 1023 of row b of the padded
  [64, 50176] arrays, which below position 50000 are the arguments themselves.
-/
import proofs.«428212_j77567109366401_3_alg».proof.Proof.Gen.KernelIdeal.Frame.Runs
import proofs.«428212_j77567109366401_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Val

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen Cert.GatherLoss

variable (m : (ℓ : Loc nD τ sig) → Buf (Elt Ideal) ℓ)

/-- The image of grid point `t`, and its tile. -/
def bOf (t : Fin cfg0.N) : Fin 64 := ⟨t.val / 49, by have := t.isLt; have hN : cfg0.N = 3136 := N_0; omega⟩
def rOf (t : Fin cfg0.N) : Fin 49 := ⟨t.val % 49, Nat.mod_lt _ (by decide)⟩

/-- The six argument arrays on core `c`. -/
abbrev argX (c : Dev nD) : FVec Ideal S64x1x512x512 .f32 := m ((c : Thread nD τ).loc main_arg0)
abbrev argXA (c : Dev nD) : IVec S64x50000 32 := m ((c : Thread nD τ).loc main_arg1)
abbrev argYA (c : Dev nD) : IVec S64x50000 32 := m ((c : Thread nD τ).loc main_arg2)
abbrev argXB (c : Dev nD) : IVec S64x50000 32 := m ((c : Thread nD τ).loc main_arg3)
abbrev argYB (c : Dev nD) : IVec S64x50000 32 := m ((c : Thread nD τ).loc main_arg4)
abbrev argGT (c : Dev nD) : FVec Ideal S64x50000 .f32 := m ((c : Thread nD τ).loc main_arg5)

/-- The seven input blocks at grid point `t`, at their literal types. -/
abbrev hiBlk (c : Dev nD) (t : Fin cfg0.N) : Vec Ideal S1x512x512 .bf16 := iblk m c 0 t
abbrev loBlk (c : Dev nD) (t : Fin cfg0.N) : Vec Ideal S1x512x512 .bf16 := iblk m c 1 t
abbrev xaBlk (c : Dev nD) (t : Fin cfg0.N) : Vec Ideal S1x1x1x1024 .i32 := iblk m c 2 t
abbrev yaBlk (c : Dev nD) (t : Fin cfg0.N) : Vec Ideal S1x1x1x1024 .i32 := iblk m c 3 t
abbrev xbBlk (c : Dev nD) (t : Fin cfg0.N) : Vec Ideal S1x1x1x1024 .i32 := iblk m c 4 t
abbrev ybBlk (c : Dev nD) (t : Fin cfg0.N) : Vec Ideal S1x1x1x1024 .i32 := iblk m c 5 t
abbrev gtBlk (c : Dev nD) (t : Fin cfg0.N) : Vec Ideal S1x1x1x1024 .f32 := iblk m c 6 t

/-! ## The image windows

Both image windows have block [1, 512, 512] at block index (b, 0, 0), b the grid point's first coordinate: entry
(0, h, w) of the block at point t is entry (t / 49, h, w) of the window's [64, 512, 512] array. That array is the
argument with its unit channel axis dropped (the same row-major position), rounded to the narrow format (the identity on
extended reals) for the first window, and for the second the remainder x - widen (round x), rounded again: x - x. -/

/-- The first image window's block index at grid point `t` is (t / 49, 0, 0). -/
private theorem index0_0 : ∀ t : Fin cfg0.N,
    win0_0.index t (0 : Fin 3) = t.val / 49 ∧ win0_0.index t (1 : Fin 3) = 0 ∧ win0_0.index t (2 : Fin 3) = 0 :=
  (by decide +kernel : ∀ t : Fin grid0.N,
    win0_0.index t (0 : Fin 3) = t.val / 49 ∧ win0_0.index t (1 : Fin 3) = 0 ∧ win0_0.index t (2 : Fin 3) = 0)

/-- So is the second's. -/
private theorem index0_1 : ∀ t : Fin cfg0.N,
    win0_1.index t (0 : Fin 3) = t.val / 49 ∧ win0_1.index t (1 : Fin 3) = 0 ∧ win0_1.index t (2 : Fin 3) = 0 :=
  (by decide +kernel : ∀ t : Fin grid0.N,
    win0_1.index t (0 : Fin 3) = t.val / 49 ∧ win0_1.index t (1 : Fin 3) = 0 ∧ win0_1.index t (2 : Fin 3) = 0)

/-- Entry (0, h, w) of the first window's block at `t` is entry (t / 49, h, w) of its array: each coordinate is
    block index × block size + the coordinate inside the block. -/
private theorem hiBlk_eq_arr (c : Dev nD) (t : Fin cfg0.N) (h w : Fin 512) :
    hiBlk m c t (ix3 (0 : Fin 1) h w) = (V m c main_v1 : S64x512x512.Idx → Ideal .bf16) (ix3 (bOf t) h w) := by
  unfold hiBlk iblk
  rw [View.read_apply]
  show V m c main_v1 _ = V m c main_v1 _
  congr 1
  funext a
  apply Fin.ext
  have hi := index0_0 t
  match a with
  | ⟨0, _⟩ => show win0_0.index t 0 * 1 + 1 * 0 = t.val / 49; rw [hi.1]; omega
  | ⟨1, _⟩ => show win0_0.index t 1 * 512 + 1 * h.val = h.val; rw [hi.2.1]; omega
  | ⟨2, _⟩ => show win0_0.index t 2 * 512 + 1 * w.val = w.val; rw [hi.2.2]; omega

/-- The same for the second window. -/
private theorem loBlk_eq_arr (c : Dev nD) (t : Fin cfg0.N) (h w : Fin 512) :
    loBlk m c t (ix3 (0 : Fin 1) h w) = (V m c main_v4 : S64x512x512.Idx → Ideal .bf16) (ix3 (bOf t) h w) := by
  unfold loBlk iblk
  rw [View.read_apply]
  show V m c main_v4 _ = V m c main_v4 _
  congr 1
  funext a
  apply Fin.ext
  have hi := index0_1 t
  match a with
  | ⟨0, _⟩ => show win0_1.index t 0 * 1 + 1 * 0 = t.val / 49; rw [hi.1]; omega
  | ⟨1, _⟩ => show win0_1.index t 1 * 512 + 1 * h.val = h.val; rw [hi.2.1]; omega
  | ⟨2, _⟩ => show win0_1.index t 2 * 512 + 1 * w.val = w.val; rw [hi.2.2]; omega

/-- The argument with its channel axis dropped: the [64, 512, 512] array both windows' arrays are made from. -/
private abbrev img (c : Dev nD) : FVec Ideal S64x512x512 .f32 :=
  shapeCast S64x512x512 (argX m c) shapeCasts_S64x1x512x512_S64x512x512

/-- Entry (b, h, w) of it is entry (b, 0, h, w) of the argument: the same row-major position. -/
private theorem img_apply (c : Dev nD) (b : Fin 64) (h w : Fin 512) :
    img m c (ix3 b h w) = argX m c (ix4 b (0 : Fin 1) h w) :=
  shapeCast_apply (argX m c) shapeCasts_S64x1x512x512_S64x512x512 _ _ (by
    rw [Shape.rowMajor_val_four, Shape.rowMajor_val_three]
    show ((b.val * 1 + 0) * 512 + h.val) * 512 + w.val = (b.val * 512 + h.val) * 512 + w.val
    rw [Nat.mul_one, Nat.add_zero])

/-- The first window's array when the region is entered: the image array rounded to the narrow format. -/
private theorem arr_hi (c : Dev nD) :
    (V m c main_v1 : S64x512x512.Idx → Ideal .bf16) = truncf .bf16 (img m c) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- The second window's array: the image array minus its rounding widened back, rounded. -/
private theorem arr_lo (c : Dev nD) :
    (V m c main_v4 : S64x512x512.Idx → Ideal .bf16)
      = truncf .bf16 (subf (img m c) (extf .f32 (truncf .bf16 (img m c) bitsLt_bf16_f32) bitsLt_bf16_f32)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- The first image window holds image `b` of the argument. -/
theorem hiBlk_apply (c : Dev nD) (t : Fin cfg0.N) (h w : Fin 512) :
    hiBlk m c t (ix3 (0 : Fin 1) h w) = argX m c (ix4 (bOf t) (0 : Fin 1) h w) := by
  rw [hiBlk_eq_arr, arr_hi]
  -- a change of format is the identity on extended reals
  show img m c (ix3 (bOf t) h w) = _
  exact img_apply m c (bOf t) h w

/-- The second holds the remainder x - x of the same entries. -/
theorem loBlk_apply (c : Dev nD) (t : Fin cfg0.N) (h w : Fin 512) :
    loBlk m c t (ix3 (0 : Fin 1) h w)
      = argX m c (ix4 (bOf t) (0 : Fin 1) h w) - argX m c (ix4 (bOf t) (0 : Fin 1) h w) := by
  rw [loBlk_eq_arr, arr_lo]
  -- the changes of format are the identity, and a difference of arrays is the difference entry by entry
  show img m c (ix3 (bOf t) h w) - img m c (ix3 (bOf t) h w) = _
  rw [img_apply]

end Cert.KernelIdeal.Val

end
-- ==== Proof.BlocksPts.lean ====
/-
  The five point windows' blocks read at a lane: tile r of image b holds positions
  r * 1024 .. r * 1024 + 1023 of row b of the argument padded to 50176 columns and cut into
  49 rows of 1024; below position 50000 that is the argument itself.
-/
import proofs.«428212_j77567109366401_3_alg».proof.Proof.Blocks
import Idealize.ShloMosaic.Lib.KernelVsHost

noncomputable section

namespace Cert.KernelIdeal.Val

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen Cert.GatherLoss

variable (m : (ℓ : Loc nD τ sig) → Buf (Elt Ideal) ℓ)

/-! ## Padding to 50176 columns, then cutting each row into 49 tiles of 1024

Row-major position of (b, r, 0, l) in [64, 49, 1, 1024] is ((b * 49 + r) * 1 + 0) * 1024 + l = b * 50176 + (r * 1024 + l),
the position of (b, r * 1024 + l) in [64, 50176]; and column r * 1024 + l of the padded row is, below 50000, inside the
unpadded row (low padding 0, no interior padding), where the padded array is the array itself. The padding value is
never read, so the statement holds for any element type and any padding value. -/

/-- Entry (b, r, 0, l) of the padded array cut into tiles is entry (b, r * 1024 + l) of the array, when that column is
    one of the 50000. -/
private theorem tiles_of_padded_apply {α : Type} (A : S64x50000.Idx → α) {u : Shape} (v : u.Idx → α)
    (hpad : S64x50000.Pads (![0, 0] : Fin 2 → Nat) ![0, 176] ![0, 0] S64x50176) (hu : 0 < u.numel)
    (hcast : S64x50176.ShapeCasts S64x49x1x1024) (b : Fin 64) (r : Fin 49) (l : Fin 1024)
    (h : r.val * 1024 + l.val < 50000) :
    shapeCast S64x49x1x1024 (pad S64x50176 ![0, 0] ![0, 176] ![0, 0] A v hpad hu) hcast (ix4 b r (0 : Fin 1) l)
      = A (ix2 b ⟨r.val * 1024 + l.val, h⟩) := by
  have hr := r.isLt
  have hl := l.isLt
  -- the cut: same row-major position
  refine (shapeCast_apply _ hcast (ix4 b r (0 : Fin 1) l) (ix2 b (⟨r.val * 1024 + l.val, by omega⟩ : Fin 50176)) ?_).trans ?_
  · rw [Shape.rowMajor_val_two, Shape.rowMajor_val_four]
    show b.val * 50176 + (r.val * 1024 + l.val) = ((b.val * 49 + r.val) * 1 + 0) * 1024 + l.val
    omega
  -- the padding: the column is inside the unpadded row
  · refine pad_apply_of_inside _ _ _ A v hpad hu _ (ix2 b ⟨r.val * 1024 + l.val, h⟩) (fun a => ?_)
    match a with
    | ⟨0, _⟩ => show b.val = 0 + b.val * (0 + 1); omega
    | ⟨1, _⟩ => show r.val * 1024 + l.val = 0 + (r.val * 1024 + l.val) * (0 + 1); omega

/-! ## The five point windows

For each: its index map over the grid (grid point t = 49 * b + r has block index (b, r, 0, 0)), its block read at a lane
(block coordinate = block index * block extent + coordinate inside the block), and the array it reads as the padded and
cut argument. -/

/-- Window 2's block index at grid point t is (t / 49, t % 49, 0, 0), at every point of the grid. -/
private theorem index_2 : ∀ t : Fin grid0.N, win0_2.index t (0 : Fin 4) = t.val / 49 ∧ win0_2.index t (1 : Fin 4) = t.val % 49
    ∧ win0_2.index t (2 : Fin 4) = 0 ∧ win0_2.index t (3 : Fin 4) = 0 := by decide +kernel

/-- Lane l of window 2's block at t is entry (b, r, 0, l) of the array the window reads. -/
private theorem xaBlk_eq_array (c : Dev nD) (t : Fin cfg0.N) (l : Fin 1024) :
    xaBlk m c t (ix4 (0 : Fin 1) (0 : Fin 1) (0 : Fin 1) l) = V m c main_v6 (ix4 (bOf t) (rOf t) (0 : Fin 1) l) := by
  unfold xaBlk iblk
  rw [View.read_apply]
  show V m c main_v6 _ = V m c main_v6 _
  unfold V
  congr 1
  funext a
  apply Fin.ext
  obtain ⟨h0, h1, h2, h3⟩ := index_2 t
  match a with
  | ⟨0, _⟩ => show win0_2.index t 0 * 1 + 1 * 0 = t.val / 49; rw [h0]; omega
  | ⟨1, _⟩ => show win0_2.index t 1 * 1 + 1 * 0 = t.val % 49; rw [h1]; omega
  | ⟨2, _⟩ => show win0_2.index t 2 * 1 + 1 * 0 = 0; rw [h2]
  | ⟨3, _⟩ => show win0_2.index t 3 * 1024 + 1 * l.val = l.val; rw [h3]; omega

/-- The array window 2 reads when the region is entered: x_A padded to 50176 columns and cut into tiles. -/
private theorem array_2 (c : Dev nD) : (V m c main_v6 : S64x49x1x1024.Idx → BitVec 32)
    = shapeCast S64x49x1x1024 (pad S64x50176 ![0, 0] ![0, 176] ![0, 0] (argXA m c) (id (constantI S_ 32 0#32 : IVec S_ 32))
        Facts₀.pads_S64x50000_S64x50176_000_01760 Facts₀.h_S_) Facts₀.shapeCasts_S64x50176_S64x49x1x1024 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- Window 3's block index at grid point t is (t / 49, t % 49, 0, 0), at every point of the grid. -/
private theorem index_3 : ∀ t : Fin grid0.N, win0_3.index t (0 : Fin 4) = t.val / 49 ∧ win0_3.index t (1 : Fin 4) = t.val % 49
    ∧ win0_3.index t (2 : Fin 4) = 0 ∧ win0_3.index t (3 : Fin 4) = 0 := by decide +kernel

/-- Lane l of window 3's block at t is entry (b, r, 0, l) of the array the window reads. -/
private theorem yaBlk_eq_array (c : Dev nD) (t : Fin cfg0.N) (l : Fin 1024) :
    yaBlk m c t (ix4 (0 : Fin 1) (0 : Fin 1) (0 : Fin 1) l) = V m c main_v8 (ix4 (bOf t) (rOf t) (0 : Fin 1) l) := by
  unfold yaBlk iblk
  rw [View.read_apply]
  show V m c main_v8 _ = V m c main_v8 _
  unfold V
  congr 1
  funext a
  apply Fin.ext
  obtain ⟨h0, h1, h2, h3⟩ := index_3 t
  match a with
  | ⟨0, _⟩ => show win0_3.index t 0 * 1 + 1 * 0 = t.val / 49; rw [h0]; omega
  | ⟨1, _⟩ => show win0_3.index t 1 * 1 + 1 * 0 = t.val % 49; rw [h1]; omega
  | ⟨2, _⟩ => show win0_3.index t 2 * 1 + 1 * 0 = 0; rw [h2]
  | ⟨3, _⟩ => show win0_3.index t 3 * 1024 + 1 * l.val = l.val; rw [h3]; omega

/-- The array window 3 reads when the region is entered: y_A padded to 50176 columns and cut into tiles. -/
private theorem array_3 (c : Dev nD) : (V m c main_v8 : S64x49x1x1024.Idx → BitVec 32)
    = shapeCast S64x49x1x1024 (pad S64x50176 ![0, 0] ![0, 176] ![0, 0] (argYA m c) (id (constantI S_ 32 0#32 : IVec S_ 32))
        Facts₀.pads_S64x50000_S64x50176_000_01760 Facts₀.h_S_) Facts₀.shapeCasts_S64x50176_S64x49x1x1024 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- Window 4's block index at grid point t is (t / 49, t % 49, 0, 0), at every point of the grid. -/
private theorem index_4 : ∀ t : Fin grid0.N, win0_4.index t (0 : Fin 4) = t.val / 49 ∧ win0_4.index t (1 : Fin 4) = t.val % 49
    ∧ win0_4.index t (2 : Fin 4) = 0 ∧ win0_4.index t (3 : Fin 4) = 0 := by decide +kernel

/-- Lane l of window 4's block at t is entry (b, r, 0, l) of the array the window reads. -/
private theorem xbBlk_eq_array (c : Dev nD) (t : Fin cfg0.N) (l : Fin 1024) :
    xbBlk m c t (ix4 (0 : Fin 1) (0 : Fin 1) (0 : Fin 1) l) = V m c main_v10 (ix4 (bOf t) (rOf t) (0 : Fin 1) l) := by
  unfold xbBlk iblk
  rw [View.read_apply]
  show V m c main_v10 _ = V m c main_v10 _
  unfold V
  congr 1
  funext a
  apply Fin.ext
  obtain ⟨h0, h1, h2, h3⟩ := index_4 t
  match a with
  | ⟨0, _⟩ => show win0_4.index t 0 * 1 + 1 * 0 = t.val / 49; rw [h0]; omega
  | ⟨1, _⟩ => show win0_4.index t 1 * 1 + 1 * 0 = t.val % 49; rw [h1]; omega
  | ⟨2, _⟩ => show win0_4.index t 2 * 1 + 1 * 0 = 0; rw [h2]
  | ⟨3, _⟩ => show win0_4.index t 3 * 1024 + 1 * l.val = l.val; rw [h3]; omega

/-- The array window 4 reads when the region is entered: x_B padded to 50176 columns and cut into tiles. -/
private theorem array_4 (c : Dev nD) : (V m c main_v10 : S64x49x1x1024.Idx → BitVec 32)
    = shapeCast S64x49x1x1024 (pad S64x50176 ![0, 0] ![0, 176] ![0, 0] (argXB m c) (id (constantI S_ 32 0#32 : IVec S_ 32))
        Facts₀.pads_S64x50000_S64x50176_000_01760 Facts₀.h_S_) Facts₀.shapeCasts_S64x50176_S64x49x1x1024 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- Window 5's block index at grid point t is (t / 49, t % 49, 0, 0), at every point of the grid. -/
private theorem index_5 : ∀ t : Fin grid0.N, win0_5.index t (0 : Fin 4) = t.val / 49 ∧ win0_5.index t (1 : Fin 4) = t.val % 49
    ∧ win0_5.index t (2 : Fin 4) = 0 ∧ win0_5.index t (3 : Fin 4) = 0 := by decide +kernel

/-- Lane l of window 5's block at t is entry (b, r, 0, l) of the array the window reads. -/
private theorem ybBlk_eq_array (c : Dev nD) (t : Fin cfg0.N) (l : Fin 1024) :
    ybBlk m c t (ix4 (0 : Fin 1) (0 : Fin 1) (0 : Fin 1) l) = V m c main_v12 (ix4 (bOf t) (rOf t) (0 : Fin 1) l) := by
  unfold ybBlk iblk
  rw [View.read_apply]
  show V m c main_v12 _ = V m c main_v12 _
  unfold V
  congr 1
  funext a
  apply Fin.ext
  obtain ⟨h0, h1, h2, h3⟩ := index_5 t
  match a with
  | ⟨0, _⟩ => show win0_5.index t 0 * 1 + 1 * 0 = t.val / 49; rw [h0]; omega
  | ⟨1, _⟩ => show win0_5.index t 1 * 1 + 1 * 0 = t.val % 49; rw [h1]; omega
  | ⟨2, _⟩ => show win0_5.index t 2 * 1 + 1 * 0 = 0; rw [h2]
  | ⟨3, _⟩ => show win0_5.index t 3 * 1024 + 1 * l.val = l.val; rw [h3]; omega

/-- The array window 5 reads when the region is entered: y_B padded to 50176 columns and cut into tiles. -/
private theorem array_5 (c : Dev nD) : (V m c main_v12 : S64x49x1x1024.Idx → BitVec 32)
    = shapeCast S64x49x1x1024 (pad S64x50176 ![0, 0] ![0, 176] ![0, 0] (argYB m c) (id (constantI S_ 32 0#32 : IVec S_ 32))
        Facts₀.pads_S64x50000_S64x50176_000_01760 Facts₀.h_S_) Facts₀.shapeCasts_S64x50176_S64x49x1x1024 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- Window 6's block index at grid point t is (t / 49, t % 49, 0, 0), at every point of the grid. -/
private theorem index_6 : ∀ t : Fin grid0.N, win0_6.index t (0 : Fin 4) = t.val / 49 ∧ win0_6.index t (1 : Fin 4) = t.val % 49
    ∧ win0_6.index t (2 : Fin 4) = 0 ∧ win0_6.index t (3 : Fin 4) = 0 := by decide +kernel

/-- Lane l of window 6's block at t is entry (b, r, 0, l) of the array the window reads. -/
private theorem gtBlk_eq_array (c : Dev nD) (t : Fin cfg0.N) (l : Fin 1024) :
    gtBlk m c t (ix4 (0 : Fin 1) (0 : Fin 1) (0 : Fin 1) l) = V m c main_v14 (ix4 (bOf t) (rOf t) (0 : Fin 1) l) := by
  unfold gtBlk iblk
  rw [View.read_apply]
  show V m c main_v14 _ = V m c main_v14 _
  unfold V
  congr 1
  funext a
  apply Fin.ext
  obtain ⟨h0, h1, h2, h3⟩ := index_6 t
  match a with
  | ⟨0, _⟩ => show win0_6.index t 0 * 1 + 1 * 0 = t.val / 49; rw [h0]; omega
  | ⟨1, _⟩ => show win0_6.index t 1 * 1 + 1 * 0 = t.val % 49; rw [h1]; omega
  | ⟨2, _⟩ => show win0_6.index t 2 * 1 + 1 * 0 = 0; rw [h2]
  | ⟨3, _⟩ => show win0_6.index t 3 * 1024 + 1 * l.val = l.val; rw [h3]; omega

/-- The array window 6 reads when the region is entered: the relation padded to 50176 columns and cut into tiles. -/
private theorem array_6 (c : Dev nD) : (V m c main_v14 : S64x49x1x1024.Idx → EReal)
    = shapeCast S64x49x1x1024 (pad S64x50176 ![0, 0] ![0, 176] ![0, 0] (argGT m c) (sitofp (F := Ideal) .f32 (constantI S_ 32 0#32 : IVec S_ 32))
        Facts₀.pads_S64x50000_S64x50176_000_01760 Facts₀.h_S_) Facts₀.shapeCasts_S64x50176_S64x49x1x1024 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results
  rfl

/-- Lane `l` of a point window at tile `r` of image `b` is position r * 1024 + l of row `b` of its argument,
    when that position is one of the 50000. -/
theorem xaBlk_apply (c : Dev nD) (t : Fin cfg0.N) (l : Fin 1024) (hp : (rOf t).val * 1024 + l.val < 50000) :
    xaBlk m c t (ix4 (0 : Fin 1) (0 : Fin 1) (0 : Fin 1) l) = argXA m c (ix2 (bOf t) ⟨(rOf t).val * 1024 + l.val, hp⟩) :=
  (xaBlk_eq_array m c t l).trans ((congrFun (array_2 m c) _).trans
    (tiles_of_padded_apply (argXA m c) _ _ _ _ (bOf t) (rOf t) l hp))
theorem yaBlk_apply (c : Dev nD) (t : Fin cfg0.N) (l : Fin 1024) (hp : (rOf t).val * 1024 + l.val < 50000) :
    yaBlk m c t (ix4 (0 : Fin 1) (0 : Fin 1) (0 : Fin 1) l) = argYA m c (ix2 (bOf t) ⟨(rOf t).val * 1024 + l.val, hp⟩) :=
  (yaBlk_eq_array m c t l).trans ((congrFun (array_3 m c) _).trans
    (tiles_of_padded_apply (argYA m c) _ _ _ _ (bOf t) (rOf t) l hp))
theorem xbBlk_apply (c : Dev nD) (t : Fin cfg0.N) (l : Fin 1024) (hp : (rOf t).val * 1024 + l.val < 50000) :
    xbBlk m c t (ix4 (0 : Fin 1) (0 : Fin 1) (0 : Fin 1) l) = argXB m c (ix2 (bOf t) ⟨(rOf t).val * 1024 + l.val, hp⟩) :=
  (xbBlk_eq_array m c t l).trans ((congrFun (array_4 m c) _).trans
    (tiles_of_padded_apply (argXB m c) _ _ _ _ (bOf t) (rOf t) l hp))
theorem ybBlk_apply (c : Dev nD) (t : Fin cfg0.N) (l : Fin 1024) (hp : (rOf t).val * 1024 + l.val < 50000) :
    ybBlk m c t (ix4 (0 : Fin 1) (0 : Fin 1) (0 : Fin 1) l) = argYB m c (ix2 (bOf t) ⟨(rOf t).val * 1024 + l.val, hp⟩) :=
  (ybBlk_eq_array m c t l).trans ((congrFun (array_5 m c) _).trans
    (tiles_of_padded_apply (argYB m c) _ _ _ _ (bOf t) (rOf t) l hp))
theorem gtBlk_apply (c : Dev nD) (t : Fin cfg0.N) (l : Fin 1024) (hp : (rOf t).val * 1024 + l.val < 50000) :
    gtBlk m c t (ix4 (0 : Fin 1) (0 : Fin 1) (0 : Fin 1) l) = argGT m c (ix2 (bOf t) ⟨(rOf t).val * 1024 + l.val, hp⟩) :=
  (gtBlk_eq_array m c t l).trans ((congrFun (array_6 m c) _).trans
    (tiles_of_padded_apply (argGT m c) _ _ _ _ (bOf t) (rOf t) l hp))

end Cert.KernelIdeal.Val

end
-- ==== Proof.SumTiles.lean ====
/-
  Regrouping a sum over 50000 points as a sum over 49 tiles of 1024 lanes, the lanes past the
  50000th contributing zero: in any commutative additive monoid (the extended reals are one).
-/
import Mathlib.Algebra.BigOperators.Fin
import Mathlib.Algebra.BigOperators.Group.Finset.Basic
import Mathlib.Logic.Equiv.Fin.Basic

namespace Cert.GatherLoss

/-- A double sum over `m` rows of `n` columns of a function of the flat position `r * n + l`
is the single sum over the `m * n` flat positions: `(r, l) ↦ r * n + l` is a bijection. -/
private theorem sum_rows_cols {M : Type*} [AddCommMonoid M] (m n : ℕ) (F : ℕ → M) :
    (∑ r : Fin m, ∑ l : Fin n, F (r.val * n + l.val)) = ∑ q : Fin (m * n), F q.val := by
  rw [← Fintype.sum_prod_type', ← Equiv.sum_comp finProdFinEquiv (fun q : Fin (m * n) => F q.val)]
  refine Fintype.sum_congr _ _ (fun x => ?_)
  rw [finProdFinEquiv_apply_val, Nat.add_comm, Nat.mul_comm]

/-- A sum over `a + b` positions of a function that vanishes from position `a` on is the sum over
the first `a` positions. -/
private theorem sum_head {M : Type*} [AddCommMonoid M] (a b N : ℕ) (hN : N = a + b) (F : ℕ → M)
    (hF : ∀ n, a ≤ n → F n = 0) :
    (∑ q : Fin N, F q.val) = ∑ p : Fin a, F p.val := by
  subst hN
  rw [Fin.sum_trunc (fun q : Fin (a + b) => F q.val)
    (fun j => hF _ (by rw [Fin.val_natAdd]; exact Nat.le_add_right a j.val))]
  rfl

/-- 49 tiles of 1024 lanes cover the 50000 points once each; lanes at positions >= 50000 add zero. -/
theorem sum_tiles {M : Type*} [AddCommMonoid M] (f : Fin 50000 → M) :
    (∑ r : Fin 49, ∑ l : Fin 1024, (if h : r.val * 1024 + l.val < 50000 then f ⟨r.val * 1024 + l.val, h⟩ else 0))
      = ∑ p : Fin 50000, f p := by
  -- the summand as a function of the flat position: f on the first 50000 positions, zero beyond
  let F : ℕ → M := fun n => if h : n < 50000 then f ⟨n, h⟩ else 0
  calc (∑ r : Fin 49, ∑ l : Fin 1024,
          (if h : r.val * 1024 + l.val < 50000 then f ⟨r.val * 1024 + l.val, h⟩ else 0))
      = ∑ r : Fin 49, ∑ l : Fin 1024, F (r.val * 1024 + l.val) := rfl
    _ = ∑ q : Fin (49 * 1024), F q.val := sum_rows_cols 49 1024 F
    _ = ∑ p : Fin 50000, F p.val :=
        sum_head 50000 176 (49 * 1024) rfl F (fun n hn => dif_neg (Nat.not_lt.mpr hn))
    _ = ∑ p : Fin 50000, f p := Fintype.sum_congr _ _ (fun p => dif_pos p.isLt)

end Cert.GatherLoss
-- ==== Proof.Accum.lean ====
/-
  The output block over the grid. Point t = 49 * b + r adds tile r's 1024 masked losses to every
  lane of image b's output block, the first tile of an image starting from zero: after point t the
  block holds the sum of the tiles 0 .. r of image b. A tile's sum is the sum of the pair losses of
  its points below the 50000th, so an image's 49 tiles sum to the image's 50000 pair losses.
-/
import proofs.«428212_j77567109366401_3_alg».proof.Proof.Pieces
import proofs.«428212_j77567109366401_3_alg».proof.Proof.Losses
import proofs.«428212_j77567109366401_3_alg».proof.Proof.BlocksPts
import proofs.«428212_j77567109366401_3_alg».proof.Proof.SumTiles

noncomputable section

namespace Cert.KernelIdeal.Val

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen Cert.GatherLoss

variable (m : (ℓ : Loc nD τ sig) → Buf (Elt Ideal) ℓ)

/-- The grid's points in row-major order: image t / 49, tile t % 49. -/
theorem coords_facts : ∀ t : Fin cfg0.N, (grid0.coords t 0).val = t.val / 49 ∧ (grid0.coords t 1).val = t.val % 49 :=
  (by decide +kernel : ∀ t : Fin grid0.N, (grid0.coords t 0).val = t.val / 49 ∧ (grid0.coords t 1).val = t.val % 49)

/-- The sum of the 1024 masked losses of the tile at grid point `t`. -/
def tileSum (c : Dev nD) (t : Fin cfg0.N) : EReal :=
  ∑ l : Fin 1024, (tileLosses (F := Ideal) (BitVec.ofNat 32 (grid0.coords t 1).val) (hiBlk m c t) (loBlk m c t)
    (xaBlk m c t) (yaBlk m c t) (xbBlk m c t) (ybBlk m c t) (gtBlk m c t)) (ix2 (0 : Fin 1) l)

/-- The same at a position that may lie past the grid (zero there). -/
def tileSumN (c : Dev nD) (n : ℕ) : EReal := if h : n < cfg0.N then tileSum m c ⟨n, h⟩ else 0

/-- At the first tile of an image every lane of the block is the tile's sum, from zero. -/
theorem outsAt_first (c : Dev nD) (t : Fin cfg0.N) (h0 : t.val % 49 = 0) (j : S1x1x128.Idx) :
    outsAt0 m c t.val t.isLt j = tileSum m c t := by
  rw [outsAt0_A m c t h0,
    out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t) (iblk m c 6 t),
    pay1_apply, pay2_apply, zero_add]
  rfl

/-- At a later tile every lane gains the tile's sum over what the point before left. -/
theorem outsAt_next (c : Dev nD) (n : ℕ) (hn : n + 1 < cfg0.N) (h0 : ¬(n + 1) % 49 = 0) (j : S1x1x128.Idx) :
    outsAt0 m c (n + 1) hn j = outsAt0 m c n (Nat.lt_of_succ_lt hn) j + tileSum m c ⟨n + 1, hn⟩ := by
  have e := outsAt0_B m c ⟨n + 1, hn⟩ h0
  rw [out_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)] at e
  have e' := congrFun e j
  rw [pay1_apply] at e'
  exact e'

/-- After tile `r` of image `b` the block holds the sum of the tiles 0 .. r of that image. -/
theorem outsAt_sum (c : Dev nD) (b : ℕ) : ∀ (r : ℕ) (h : 49 * b + r < cfg0.N), r < 49 → ∀ j : S1x1x128.Idx,
    outsAt0 m c (49 * b + r) h j = ∑ k ∈ Finset.range (r + 1), tileSumN m c (49 * b + k)
  | 0, h, _, j => by
    rw [Finset.sum_range_one]
    have e := outsAt_first m c ⟨49 * b + 0, h⟩ (by show (49 * b + 0) % 49 = 0; omega) j
    rw [tileSumN, dif_pos h]
    exact e
  | r + 1, h, hr, j => by
    rw [Finset.sum_range_succ, ← outsAt_sum c b r (by omega) (by omega) j]
    have e := outsAt_next m c (49 * b + r) h (by omega) j
    rw [tileSumN, dif_pos (show 49 * b + (r + 1) < cfg0.N from h)]
    exact e

end Cert.KernelIdeal.Val

end
-- ==== Proof.Image.lean ====
/-
  A tile's sum in the specification's terms, and an image's total. On the domain the precondition
  gives (the image finite, every coordinate word in [0, 512)) lane l of tile r of image b, when
  r * 1024 + l < 50000, is the pair loss of point r * 1024 + l of image b; the remainder block
  x - x is zero because x is finite; past the 50000th point the lane is zero. So the 49 tiles of an
  image sum to its 50000 pair losses.
-/
import proofs.«428212_j77567109366401_3_alg».proof.Proof.Accum

noncomputable section

namespace Cert.KernelIdeal.Val

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen Cert.GatherLoss

variable (m : (ℓ : Loc nD τ sig) → Buf (Elt Ideal) ℓ)

/-- What the precondition says of core `c`'s arguments. -/
structure Good (c : Dev nD) : Prop where
  fin : ∀ i, ∃ r : ℝ, argX m c i = (r : EReal)
  hxa : ∀ i, (argXA m c i).toNat < 512
  hya : ∀ i, (argYA m c i).toNat < 512
  hxb : ∀ i, (argXB m c i).toNat < 512
  hyb : ∀ i, (argYB m c i).toNat < 512

/-- The pair loss of point `p` of image `b`, of core `c`'s arguments. -/
abbrev ptLoss (c : Dev nD) (b : Fin 64) (p : Fin 50000) : EReal :=
  pointLoss (argX m c) (argXA m c) (argYA m c) (argXB m c) (argYB m c) (argGT m c) b p

/-- The tile's coordinate word is the tile's number, below 49. -/
theorem tileWord (t : Fin cfg0.N) : (BitVec.ofNat 32 (grid0.coords t 1).val).toNat = (rOf t).val := by
  rw [(coords_facts t).2, BitVec.toNat_ofNat]
  show t.val % 49 % 2 ^ 32 = t.val % 49
  have : t.val % 49 < 49 := Nat.mod_lt _ (by decide)
  omega

/-- A tile's sum is the sum of its points' pair losses, the lanes past the 50000th point adding zero. -/
theorem tileSum_eq (c : Dev nD) (hg : Good m c) (t : Fin cfg0.N) :
    tileSum m c t = ∑ l : Fin 1024,
      (if h : (rOf t).val * 1024 + l.val < 50000 then ptLoss m c (bOf t) ⟨(rOf t).val * 1024 + l.val, h⟩ else 0) := by
  unfold tileSum
  refine Finset.sum_congr rfl fun l _ => ?_
  have hw := tileWord t
  have hr : (BitVec.ofNat 32 (grid0.coords t 1).val).toNat < 49 := by rw [hw]; exact (rOf t).isLt
  by_cases h : (rOf t).val * 1024 + l.val < 50000
  · rw [dif_pos h]
    have hlo : ∀ (hh w : Fin 512), loBlk m c t (ix3 (0 : Fin 1) hh w) = 0 := fun hh w => by
      rw [loBlk_apply]
      obtain ⟨x, hx⟩ := hg.fin (ix4 (bOf t) (0 : Fin 1) hh w)
      rw [hx, ← EReal.coe_sub, sub_self, EReal.coe_zero]
    have exa : lane (xaBlk m c t) l = argXA m c (ix2 (bOf t) ⟨(rOf t).val * 1024 + l.val, h⟩) := xaBlk_apply m c t l h
    have eya : lane (yaBlk m c t) l = argYA m c (ix2 (bOf t) ⟨(rOf t).val * 1024 + l.val, h⟩) := yaBlk_apply m c t l h
    have exb : lane (xbBlk m c t) l = argXB m c (ix2 (bOf t) ⟨(rOf t).val * 1024 + l.val, h⟩) := xbBlk_apply m c t l h
    have eyb : lane (ybBlk m c t) l = argYB m c (ix2 (bOf t) ⟨(rOf t).val * 1024 + l.val, h⟩) := ybBlk_apply m c t l h
    refine (tileLoss_live (BitVec.ofNat 32 (grid0.coords t 1).val) (hiBlk m c t) (loBlk m c t) (xaBlk m c t) (yaBlk m c t)
      (xbBlk m c t) (ybBlk m c t) (gtBlk m c t) l hr (by rw [hw]; exact h)
      (by rw [exa]; exact hg.hxa _) (by rw [eya]; exact hg.hya _) (by rw [exb]; exact hg.hxb _) (by rw [eyb]; exact hg.hyb _) hlo).trans ?_
    rw [gtBlk_apply m c t l h, hiBlk_apply, hiBlk_apply, exa, eya, exb, eyb]
    rfl
  · rw [dif_neg h]
    exact tileLoss_masked (BitVec.ofNat 32 (grid0.coords t 1).val) (hiBlk m c t) (loBlk m c t) (xaBlk m c t) (yaBlk m c t)
      (xbBlk m c t) (ybBlk m c t) (gtBlk m c t) l hr (by rw [hw]; exact h)

/-- The 49 tiles of image `b` sum to its 50000 pair losses. -/
theorem image_total (c : Dev nD) (hg : Good m c) (b : Fin 64) :
    ∑ k ∈ Finset.range 49, tileSumN m c (49 * b.val + k) = ∑ p : Fin 50000, ptLoss m c b p := by
  have hN : cfg0.N = 3136 := N_0
  rw [← sum_tiles (fun p => ptLoss m c b p), Finset.sum_range]
  refine Finset.sum_congr rfl fun r _ => ?_
  have hlt : 49 * b.val + r.val < cfg0.N := by have := b.isLt; have := r.isLt; omega
  rw [tileSumN, dif_pos hlt, tileSum_eq m c hg ⟨49 * b.val + r.val, hlt⟩]
  have eb : bOf ⟨49 * b.val + r.val, hlt⟩ = b := Fin.ext (by show (49 * b.val + r.val) / 49 = b.val; have := r.isLt; omega)
  have er : rOf ⟨49 * b.val + r.val, hlt⟩ = r := Fin.ext (by show (49 * b.val + r.val) % 49 = r.val; have := r.isLt; omega)
  rw [eb, er]

end Cert.KernelIdeal.Val

end
-- ==== Proof.Tail.lean ====
/-
  The host operations after the region: lane 0 of each image's output row, summed over the 64 images
  from zero, divided by the literal count.
-/
import proofs.«428212_j77567109366401_3_alg».proof.Proof.Gen.KernelIdeal.Frame.Runs
import proofs.«428212_j77567109366401_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen Cert.GatherLoss

variable (m : (ℓ : Loc nD τ sig) → Buf (Elt Ideal) ℓ)

/-- A rank-1 index set is its one coordinate range. -/
private def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- Lane 0 of row `b`, read through the slice [0:64, 0:1, 0:1] and the reshape to [64]: the row-major position of
    (b, 0, 0) in [64, 1, 1] is b, and the slice's offsets are all zero. -/
private theorem lane0_apply (A : FVec Ideal S64x1x128 .f32) (b : Fin 64) :
    shapeCast S64 (extractStridedSlice S64x1x1 ![0, 0, 0] A slices_S64x1x128_S64x1x1_0_0_0) shapeCasts_S64x1x1_S64 (ix1 b)
      = A (ix3 b (0 : Fin 1) (0 : Fin 128)) := by
  refine (shapeCast_apply _ shapeCasts_S64x1x1_S64 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply ![0, 0, 0] A slices_S64x1x128_S64x1x1_0_0_0 (ix3 b (0 : Fin 1) (0 : Fin 1)) (ix3 b (0 : Fin 1) (0 : Fin 128)) ?_
    intro a
    match a with
    | ⟨0, _⟩ => show b.val = 0 + b.val; omega
    | ⟨1, _⟩ => rfl
    | ⟨2, _⟩ => rfl

/-- The chain of host operations on an arbitrary [64, 1, 128] array: lane 0 of every row, summed from the literal
    zero (which is the extended real 0, so the initial value drops), over the literal count. The rank-0 result has
    one index; the reduction into it is the total sum over the rank-1 operand, re-indexed by its coordinate. -/
private theorem chain_value (A : FVec Ideal S64x1x128 .f32) :
    Host.divf (F := Ideal)
        (Host.reduceAdd (F := Ideal)
          (shapeCast S64 (extractStridedSlice S64x1x1 ![0, 0, 0] A slices_S64x1x128_S64x1x1_0_0_0) shapeCasts_S64x1x1_S64)
          (constant (F := Ideal) S_ .f32 0x00000000#32) reducesTo_S64_S_d0 h_S_)
        (constant (F := Ideal) S_ .f32 0x4A435000#32)
      = fun _ => Ideal.div (∑ b : Fin 64, A (ix3 b (0 : Fin 1) (0 : Fin 128))) count32 := by
  funext j
  show Ideal.div (Ideal.hostReduceAdd reducesTo_S64_S_d0 _ (Ideal.ofBits .f32 0x00000000#32) j) (Ideal.ofBits .f32 0x4A435000#32) = _
  rw [Ideal.hostReduceAdd_total reducesTo_S64_S_d0 (fun b => b.elim0), Ideal.ofBits_zero_f32, zero_add, sum_idx1]
  exact congrArg (fun s => Ideal.div s count32) (Finset.sum_congr rfl fun b _ => lane0_apply A b)

/-- The program's result, whatever the region left in its output array: the sum over the 64 images of that
    array at (b, 0, 0), over the literal count. The operations after the region read the region's output array
    (the array of window 7) and write only their own result buffers, so the last result buffer holds the chain
    above applied to that array. -/
theorem tail_value (dats : (p : Fin 1) → (c : Dev nD) → Dat τ (Elt Ideal) Unit ℕ (UR sig nD τ) ℕ (cfgs p) c) (c : Dev nD) :
    Pipeline.afterTail₀ cfgs dats 0 (V0 m) [hostOps1] c main_v19
      = fun _ => Ideal.div (∑ b : Fin 64, ((dats 0 c).arrAt 7 cfg0.N : FVec Ideal S64x1x128 .f32) (ix3 b (0 : Fin 1) (0 : Fin 128))) count32 := by
  unfold Pipeline.afterTail₀
  show StableHlo.after (List.flatten [hostOps1]) _ (Proc.devRef .tc main_v19) = _
  simp only [List.flatten_cons, List.flatten_nil, List.append_nil]
  after_results
  have hA : Pipeline.withArrays (cfgs 0).spec c (V0 m c) (fun w => (dats 0 c).arrAt w (cfgs 0).N) (Proc.devRef .tc main_v15)
      = (dats 0 c).arrAt 7 cfg0.N :=
    Pipeline.withArrays_arr spec0 launch0.win.arr_inj c (V0 m c) (fun w => (dats 0 c).arrAt w cfg0.N) 7
  rw [hA]
  exact chain_value _

end Cert.KernelIdeal.Val

end
-- ==== Proof.Final.lean ====
/-
  The output array after the run, and the program's result. The output window's block at grid point
  t is row t / 49 of the [64, 1, 128] array; it is written back after the last tile of each image
  (t % 49 = 48), when it holds the image's total in every lane; those 64 blocks cover the array. The
  host operations after the region sum lane 0 over the images and divide by the literal count: the
  mean loss.
-/
import proofs.«428212_j77567109366401_3_alg».proof.Proof.Image
import proofs.«428212_j77567109366401_3_alg».proof.Proof.Tail

noncomputable section

namespace Cert.KernelIdeal.Val

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen Cert.GatherLoss

variable (m : (ℓ : Loc nD τ sig) → Buf (Elt Ideal) ℓ) (ρ : Dev nD → PrngReg)

/-- The output window's block index at a grid point: (image, 0, 0). -/
theorem idx7 : ∀ t : Fin cfg0.N, win0_7.index t (0 : Fin 3) = t.val / 49 ∧ win0_7.index t (1 : Fin 3) = 0 ∧ win0_7.index t (2 : Fin 3) = 0 :=
  (by decide +kernel : ∀ t : Fin grid0.N, win0_7.index t (0 : Fin 3) = t.val / 49 ∧ win0_7.index t (1 : Fin 3) = 0 ∧ win0_7.index t (2 : Fin 3) = 0)

/-- The total of image `b`'s 49 tiles. -/
def imgSumN (c : Dev nD) (b : ℕ) : EReal := ∑ k ∈ Finset.range 49, tileSumN m c (49 * b + k)

/-- The array the region leaves: every lane of row `b` at image `b`'s total. -/
abbrev outArr (c : Dev nD) : FVec Ideal S64x1x128 .f32 := fun i => imgSumN m c (i 0).val

/-- What a flushing point writes back is its block of that array. -/
theorem flushed7 (c : Dev nD) (t : Fin cfg0.N) (hf : (cfg0.win 7).flush t = true) :
    (dats m 0 c).flushed 7 t = ((cfg0.win 7).blk t).view.read (Elt Ideal) (outArr m c) := by
  have hN : cfg0.N = 3136 := N_0
  have h48 : t.val % 49 = 48 := (flush0_7 t).mp hf
  have hlt := t.isLt
  show (cfg0.win 7).cut (grid0.coords t) ((dats m 0 c).after 7 t) = _
  rw [after0_7]
  funext y
  show outsAt0 m c t.val t.isLt y = imgSumN m c ((((cfg0.win 7).blk t).view.emb y) 0).val
  have e0 : ((((cfg0.win 7).blk t).view.emb y) 0).val = t.val / 49 := by
    show win0_7.index t (0 : Fin 3) * 1 + 1 * (y 0).val = t.val / 49
    have hy : (y 0).val < 1 := (y 0).isLt
    rw [(idx7 t).1]; omega
  rw [e0]
  have hsplit : t.val = 49 * (t.val / 49) + 48 := by omega
  have key := outsAt_sum m c (t.val / 49) 48 (by omega) (by decide) y
  unfold imgSumN
  rw [← key]
  congr 1
  all_goals first | exact hsplit | skip

/-- Every index of the array lies in the block of its image's last point. -/
theorem cover7 (i : S64x1x128.Idx) : ∃ t : Fin cfg0.N, (cfg0.win 7).flush t = true ∧ i ∈ ((cfg0.win 7).blk t).view.set := by
  have hN : cfg0.N = 3136 := N_0
  have h0 : (i 0).val < 64 := (i 0).isLt
  have h1 : (i 1).val < 1 := (i 1).isLt
  have h2 : (i 2).val < 128 := (i 2).isLt
  have hlt : 49 * (i 0).val + 48 < cfg0.N := by omega
  obtain ⟨t, htv⟩ : ∃ t : Fin cfg0.N, t.val = 49 * (i 0).val + 48 := ⟨⟨_, hlt⟩, rfl⟩
  refine ⟨t, (flush0_7 t).mpr (by rw [htv]; omega), ?_⟩
  show i ∈ ((View.whole main_v15).slice (win0_7.rect t)).set
  rw [View.set_slice_whole, Rect.mem_set_unit]
  obtain ⟨e0, e1, e2⟩ := idx7 t
  have e0' : win0_7.index t (0 : Fin 3) = (i 0).val := by rw [e0, htv]; omega
  intro a
  match a with
  | ⟨0, _⟩ => show win0_7.index t (0 : Fin 3) * 1 ≤ (i 0).val ∧ (i 0).val < win0_7.index t (0 : Fin 3) * 1 + 1
              rw [e0']; omega
  | ⟨1, _⟩ => show win0_7.index t (1 : Fin 3) * 1 ≤ (i 1).val ∧ (i 1).val < win0_7.index t (1 : Fin 3) * 1 + 1
              rw [e1]; omega
  | ⟨2, _⟩ => show win0_7.index t (2 : Fin 3) * 128 ≤ (i 2).val ∧ (i 2).val < win0_7.index t (2 : Fin 3) * 128 + 128
              rw [e2]; omega

/-- So the region leaves that array. -/
theorem final7 (c : Dev nD) : (dats m 0 c).arrAt 7 cfg0.N = outArr m c := by
  funext i
  rw [(dats m 0 c).arrAt_eq_piecewise 7 (outArr m c) (fun t hf => flushed7 m c t hf) i]
  exact if_pos (cover7 i)

/-- The program's result on the precondition's domain: the mean loss of the arguments. -/
theorem result_eq (c : Dev nD) (hg : Good m c) :
    Pipeline.afterTail₀ cfgs (dats m) 0 (V0 m) [hostOps1] c main_v19
      = fun _ => meanLoss (argX m c) (argXA m c) (argYA m c) (argXB m c) (argYB m c) (argGT m c) := by
  rw [tail_value m (dats m) c, final7 m c]
  funext _
  unfold meanLoss
  refine congrArg (fun s : EReal => Ideal.div s count32) (Finset.sum_congr rfl fun b _ => ?_)
  show imgSumN m c b.val = _
  exact image_total m c hg b

/-- THE KERNEL'S RUN, read: every weakly fair execution ends with the result at the mean loss and the six
    arguments as launched. -/
theorem run (hg : ∀ c : Dev nD, Good m c) :
    θ_run defs (onTc (τ := τ) (main (F := Ideal))) ⟨m, fun _ => 0, ρ⟩ (fun r => ∀ c : Dev nD,
      r.2.mem ((c : Thread nD τ).loc main_v19)
        = (fun _ => meanLoss (argX m c) (argXA m c) (argYA m c) (argXB m c) (argYB m c) (argGT m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨((h c).2 main_v19 (Pipeline.mem_restRefs_of main_v19 (by decide) (by decide))).trans (result_eq m c (hg c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Val

end
-- ==== Proof.RefValue.lean ====
/-
  The reference program's value: its run ends with the mean loss of the six arguments, when the
  coordinate words are in [0, 512) (there the wrap of negative indices and the clamp of the gather
  are both the identity).

  The road. The run's result is the last operation's value as a function of the six arguments. Read
  at its one index it is the quotient, by the literal count, of the sum over all (b, p) of the
  pointwise term. At (b, p) each gather reads the reshaped image at the three components of its
  start index: the batch component is the word of b (an iota, wrapped with 64, which keeps it), the
  row and column components are the coordinate words (wrapped with 512, which keeps a word in
  [0, 512)); read signed and clamped into their axes they are b and the two pixels; and the
  reshaped image at (b, h, w) is the image at (b, 0, h, w). The rest is the pointwise arithmetic.
-/
import proofs.«428212_j77567109366401_3_alg».proof.Proof.Gen.ReferenceIdeal.Run
import proofs.«428212_j77567109366401_3_alg».proof.Proof.Gen.ReferenceIdeal.Read
import proofs.«428212_j77567109366401_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.GatherLoss

/-! ## The wrap of a coordinate word in range is the word -/

/-- A word below 2^31 is not negative, so the wrap `select (w <s 0) (w + c) w` keeps it. -/
private theorem wrap_of_lt (w c : BitVec 32) (h : w.toNat < 2 ^ 31) :
    Scalar.select (IntOp.cmpi .slt w 0#32) (IntOp.addi w c) w = w := by
  have hn : ¬ IntOp.cmpi .slt w 0#32 = 1#1 := by
    rw [StableHlo.Predicate.slt_iff_toNat h (by decide)]
    simp
  rw [eq_zero_of_ne_one hn]
  exact select_zero _ _

/-- The signed reading of a small word, clamped to [0, m], is the word's value when that is at most m. -/
private theorem clamp_of_le (w : BitVec 32) (m : Nat) (h : w.toNat ≤ m) (hm : m < 2 ^ 31) :
    min w.toInt.toNat m = w.toNat := by
  rw [StableHlo.Predicate.toInt_eq_toNat_of_lt (by omega)]
  simp only [Int.toNat_natCast]
  omega

/-! ## The three-way concatenation along the last axis, read at (b, p, k) -/

private theorem concat3_apply0 {α : Type} (u0 u1 u2 : S64x50000x1.Idx → α) (b : Fin 64) (p : Fin 50000) :
    concatenate S64x50000x3 2 [⟨S64x50000x1, u0⟩, ⟨S64x50000x1, u1⟩, ⟨S64x50000x1, u2⟩]
      concatenates_S64x50000x1_S64x50000x1_S64x50000x1_S64x50000x3_d2 (ix3 b p (0 : Fin 3))
      = u0 (ix3 b p (0 : Fin 1)) := by
  refine concatenate_apply_piece (t := S64x50000x3) (a := (2 : Fin S64x50000x3.rank)) [⟨S64x50000x1, u0⟩, ⟨S64x50000x1, u1⟩, ⟨S64x50000x1, u2⟩]
    concatenates_S64x50000x1_S64x50000x1_S64x50000x1_S64x50000x3_d2 (ix3 b p (0 : Fin 3)) 0 (show (0 : Nat) < 3 by decide)
    S64x50000x1 u0 rfl rfl 0 rfl (ix3 b p (0 : Fin 1)) ?_ rfl
  intro c hc
  match c with
  | ⟨0, _⟩ => rfl
  | ⟨1, _⟩ => rfl
  | ⟨2, _⟩ => exact absurd rfl hc

private theorem concat3_apply1 {α : Type} (u0 u1 u2 : S64x50000x1.Idx → α) (b : Fin 64) (p : Fin 50000) :
    concatenate S64x50000x3 2 [⟨S64x50000x1, u0⟩, ⟨S64x50000x1, u1⟩, ⟨S64x50000x1, u2⟩]
      concatenates_S64x50000x1_S64x50000x1_S64x50000x1_S64x50000x3_d2 (ix3 b p (1 : Fin 3))
      = u1 (ix3 b p (0 : Fin 1)) := by
  refine concatenate_apply_piece (t := S64x50000x3) (a := (2 : Fin S64x50000x3.rank)) [⟨S64x50000x1, u0⟩, ⟨S64x50000x1, u1⟩, ⟨S64x50000x1, u2⟩]
    concatenates_S64x50000x1_S64x50000x1_S64x50000x1_S64x50000x3_d2 (ix3 b p (1 : Fin 3)) 1 (show (1 : Nat) < 3 by decide)
    S64x50000x1 u1 rfl rfl 1 rfl (ix3 b p (0 : Fin 1)) ?_ rfl
  intro c hc
  match c with
  | ⟨0, _⟩ => rfl
  | ⟨1, _⟩ => rfl
  | ⟨2, _⟩ => exact absurd rfl hc

private theorem concat3_apply2 {α : Type} (u0 u1 u2 : S64x50000x1.Idx → α) (b : Fin 64) (p : Fin 50000) :
    concatenate S64x50000x3 2 [⟨S64x50000x1, u0⟩, ⟨S64x50000x1, u1⟩, ⟨S64x50000x1, u2⟩]
      concatenates_S64x50000x1_S64x50000x1_S64x50000x1_S64x50000x3_d2 (ix3 b p (2 : Fin 3))
      = u2 (ix3 b p (0 : Fin 1)) := by
  refine concatenate_apply_piece (t := S64x50000x3) (a := (2 : Fin S64x50000x3.rank)) [⟨S64x50000x1, u0⟩, ⟨S64x50000x1, u1⟩, ⟨S64x50000x1, u2⟩]
    concatenates_S64x50000x1_S64x50000x1_S64x50000x1_S64x50000x3_d2 (ix3 b p (2 : Fin 3)) 2 (show (2 : Nat) < 3 by decide)
    S64x50000x1 u2 rfl rfl 2 rfl (ix3 b p (0 : Fin 1)) ?_ rfl
  intro c hc
  match c with
  | ⟨0, _⟩ => rfl
  | ⟨1, _⟩ => rfl
  | ⟨2, _⟩ => exact absurd rfl hc

/-! ## The gather of single elements of a rank-3 array at (b, p) -/

private abbrev gd := gather_S64x512x512_S64x50000x3_S64x50000_n_012_n_n_012_2_111

/-- Result element (b, p) is the operand at the three start-index components (b, p, 0), (b, p, 1), (b, p, 2),
    each read signed and clamped into its axis. -/
private theorem gather3_apply {α : Type} (x : S64x512x512.Idx → α) (idx : IVec S64x50000x3 32) (b : Fin 64) (p : Fin 50000) :
    Host.gather gd x idx (ix2 b p)
      = x (ix3 (⟨min (idx (ix3 b p (0 : Fin 3))).toInt.toNat 63, by omega⟩ : Fin 64)
               (⟨min (idx (ix3 b p (1 : Fin 3))).toInt.toNat 511, by omega⟩ : Fin 512)
               (⟨min (idx (ix3 b p (2 : Fin 3))).toInt.toNat 511, by omega⟩ : Fin 512)) := by
  unfold Host.gather
  congr 1
  funext a
  refine Fin.ext ?_
  match a with
  | ⟨0, _⟩ =>
    show gd.start (ix2 b p) idx 0 + gd.batchCoord (ix2 b p) 0 + gd.offCoord (ix2 b p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gd.startIndexMap from by decide)]
    have hsi : gd.siIdx (ix2 b p) ⟨List.idxOf (0 : Fin 3) gd.startIndexMap,
        List.idxOf_lt_length_iff.2 (by decide)⟩ = ix3 b p (0 : Fin 3) := by
      funext c; refine Fin.ext ?_
      match c with
      | ⟨0, _⟩ => rfl
      | ⟨1, _⟩ => rfl
      | ⟨2, _⟩ => rfl
    rw [hsi]
    rfl
  | ⟨1, _⟩ =>
    show gd.start (ix2 b p) idx 1 + gd.batchCoord (ix2 b p) 1 + gd.offCoord (ix2 b p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gd.startIndexMap from by decide)]
    have hsi : gd.siIdx (ix2 b p) ⟨List.idxOf (1 : Fin 3) gd.startIndexMap,
        List.idxOf_lt_length_iff.2 (by decide)⟩ = ix3 b p (1 : Fin 3) := by
      funext c; refine Fin.ext ?_
      match c with
      | ⟨0, _⟩ => rfl
      | ⟨1, _⟩ => rfl
      | ⟨2, _⟩ => rfl
    rw [hsi]
    rfl
  | ⟨2, _⟩ =>
    show gd.start (ix2 b p) idx 2 + gd.batchCoord (ix2 b p) 2 + gd.offCoord (ix2 b p) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gd.startIndexMap from by decide)]
    have hsi : gd.siIdx (ix2 b p) ⟨List.idxOf (2 : Fin 3) gd.startIndexMap,
        List.idxOf_lt_length_iff.2 (by decide)⟩ = ix3 b p (2 : Fin 3) := by
      funext c; refine Fin.ext ?_
      match c with
      | ⟨0, _⟩ => rfl
      | ⟨1, _⟩ => rfl
      | ⟨2, _⟩ => rfl
    rw [hsi]
    rfl

/-! ## The three components of the start indices at (b, p) -/

/-- The batch component: the image's own number. -/
private theorem batch_apply (b : Fin 64) (p : Fin 50000) :
    Read.val_main_v19 (F := Ideal) (ix3 b p (0 : Fin 1)) = BitVec.ofNat 32 b.val := by
  rw [Read.val_main_v19_apply, Read.val_main_v18_apply, Read.val_main_v7_apply, Read.val_main_v4_apply,
    Read.val_main_v6_apply, Read.val_main_v2_apply, Read.val_main_v1_apply, Read.val_main_v3_apply,
    Read.val_main_c_apply, Read.val_main_v5_apply, Read.val_main_c_0_apply]
  exact wrap_of_lt (BitVec.ofNat 32 b.val) 64#32 (by
    have := b.isLt
    simp only [BitVec.toNat_ofNat]
    omega)

private theorem batch_apply' (b : Fin 64) (p : Fin 50000) :
    Read.val_main_v40 (F := Ideal) (ix3 b p (0 : Fin 1)) = BitVec.ofNat 32 b.val := by
  rw [Read.val_main_v40_apply, Read.val_main_v39_apply, Read.val_main_v28_apply, Read.val_main_v25_apply,
    Read.val_main_v27_apply, Read.val_main_v2_apply, Read.val_main_v1_apply, Read.val_main_v24_apply,
    Read.val_main_c_5_apply, Read.val_main_v26_apply, Read.val_main_c_6_apply]
  exact wrap_of_lt (BitVec.ofNat 32 b.val) 64#32 (by
    have := b.isLt
    simp only [BitVec.toNat_ofNat]
    omega)

private theorem idx3_to_2 (b : Fin 64) (p : Fin 50000) :
    (fun a => match a with
      | ⟨0, _⟩ => ⟨((ix3 b p (0 : Fin 1) : S64x50000x1.Idx) 0).val, ((ix3 b p (0 : Fin 1) : S64x50000x1.Idx) 0).isLt⟩
      | ⟨1, _⟩ => ⟨((ix3 b p (0 : Fin 1) : S64x50000x1.Idx) 1).val, ((ix3 b p (0 : Fin 1) : S64x50000x1.Idx) 1).isLt⟩ : S64x50000.Idx)
      = ix2 b p := by
  funext a
  match a with
  | ⟨0, _⟩ => rfl
  | ⟨1, _⟩ => rfl

/-- The row component of point A: the word y_A itself. -/
private theorem yA_apply (x2 : IVec S64x50000 32) (b : Fin 64) (p : Fin 50000) (h : (x2 (ix2 b p)).toNat < 512) :
    Read.val_main_v20 (F := Ideal) x2 (ix3 b p (0 : Fin 1)) = x2 (ix2 b p) := by
  rw [Read.val_main_v20_apply, Read.val_main_v12_apply, Read.val_main_v9_apply, Read.val_main_v11_apply,
    Read.val_main_v8_apply, Read.val_main_c_1_apply, Read.val_main_v10_apply, Read.val_main_c_2_apply]
  rw [show Read.idx_main_v20 (ix3 b p (0 : Fin 1)) = ix2 b p from idx3_to_2 b p]
  exact wrap_of_lt _ _ (by omega)

private theorem xA_apply (x1 : IVec S64x50000 32) (b : Fin 64) (p : Fin 50000) (h : (x1 (ix2 b p)).toNat < 512) :
    Read.val_main_v21 (F := Ideal) x1 (ix3 b p (0 : Fin 1)) = x1 (ix2 b p) := by
  rw [Read.val_main_v21_apply, Read.val_main_v17_apply, Read.val_main_v14_apply, Read.val_main_v16_apply,
    Read.val_main_v13_apply, Read.val_main_c_3_apply, Read.val_main_v15_apply, Read.val_main_c_4_apply]
  rw [show Read.idx_main_v21 (ix3 b p (0 : Fin 1)) = ix2 b p from idx3_to_2 b p]
  exact wrap_of_lt _ _ (by omega)

private theorem yB_apply (x4 : IVec S64x50000 32) (b : Fin 64) (p : Fin 50000) (h : (x4 (ix2 b p)).toNat < 512) :
    Read.val_main_v41 (F := Ideal) x4 (ix3 b p (0 : Fin 1)) = x4 (ix2 b p) := by
  rw [Read.val_main_v41_apply, Read.val_main_v33_apply, Read.val_main_v30_apply, Read.val_main_v32_apply,
    Read.val_main_v29_apply, Read.val_main_c_7_apply, Read.val_main_v31_apply, Read.val_main_c_8_apply]
  rw [show Read.idx_main_v41 (ix3 b p (0 : Fin 1)) = ix2 b p from idx3_to_2 b p]
  exact wrap_of_lt _ _ (by omega)

private theorem xB_apply (x3 : IVec S64x50000 32) (b : Fin 64) (p : Fin 50000) (h : (x3 (ix2 b p)).toNat < 512) :
    Read.val_main_v42 (F := Ideal) x3 (ix3 b p (0 : Fin 1)) = x3 (ix2 b p) := by
  rw [Read.val_main_v42_apply, Read.val_main_v38_apply, Read.val_main_v35_apply, Read.val_main_v37_apply,
    Read.val_main_v34_apply, Read.val_main_c_9_apply, Read.val_main_v36_apply, Read.val_main_c_10_apply]
  rw [show Read.idx_main_v42 (ix3 b p (0 : Fin 1)) = ix2 b p from idx3_to_2 b p]
  exact wrap_of_lt _ _ (by omega)

/-! ## The two gathered depths, the loss of one pair, and the sum -/

private theorem ix3_congr {n0 n1 n2 : Nat} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

private theorem toNat_ofNat_fin64 (b : Fin 64) : (BitVec.ofNat 32 b.val).toNat = b.val := by
  rw [BitVec.toNat_ofNat]
  exact Nat.mod_eq_of_lt (by have := b.isLt; omega)

/-- The reshaped image at (b, h, w) is the image at (b, 0, h, w). -/
private theorem image_apply (x0 : S64x1x512x512.Idx → EReal) (b : Fin 64) (h w : Fin 512) :
    Read.val_main_v0 (F := Ideal) x0 (ix3 b h w) = x0 (ix4 b (0 : Fin 1) h w) := by
  rw [Read.val_main_v0_apply]
  congr 1
  funext a
  have hb := b.isLt
  have hh := h.isLt
  have hw := w.isLt
  match a with
  | ⟨0, _⟩ => exact Fin.ext (by show ((b.val * 512 + h.val) * 512 + w.val) / 262144 = b.val; omega)
  | ⟨1, _⟩ => exact Fin.ext rfl
  | ⟨2, _⟩ => exact Fin.ext (by show ((b.val * 512 + h.val) * 512 + w.val) / 512 % 512 = h.val; omega)
  | ⟨3, _⟩ => exact Fin.ext (by show ((b.val * 512 + h.val) * 512 + w.val) % 512 = w.val; omega)

/-- The depth gathered for point A of pair (b, p). -/
private theorem zA_apply (x0 : S64x1x512x512.Idx → EReal) (x1 x2 : IVec S64x50000 32) (b : Fin 64) (p : Fin 50000)
    (h1 : (x1 (ix2 b p)).toNat < 512) (h2 : (x2 (ix2 b p)).toNat < 512) :
    Read.val_main_v23 (F := Ideal) x0 x1 x2 (ix2 b p) = depth x0 b (x2 (ix2 b p)) (x1 (ix2 b p)) := by
  have e0 : Read.val_main_v22 (F := Ideal) x1 x2 (ix3 b p (0 : Fin 3)) = BitVec.ofNat 32 b.val := by
    unfold Read.val_main_v22; rw [concat3_apply0]; exact batch_apply b p
  have e1 : Read.val_main_v22 (F := Ideal) x1 x2 (ix3 b p (1 : Fin 3)) = x2 (ix2 b p) := by
    unfold Read.val_main_v22; rw [concat3_apply1]; exact yA_apply x2 b p h2
  have e2 : Read.val_main_v22 (F := Ideal) x1 x2 (ix3 b p (2 : Fin 3)) = x1 (ix2 b p) := by
    unfold Read.val_main_v22; rw [concat3_apply2]; exact xA_apply x1 b p h1
  unfold Read.val_main_v23 depth
  rw [gather3_apply, ← image_apply x0 b (pix (x2 (ix2 b p))) (pix (x1 (ix2 b p)))]
  refine congrArg _ (ix3_congr ?_ ?_ ?_)
  · show min (Read.val_main_v22 (F := Ideal) x1 x2 (ix3 b p (0 : Fin 3))).toInt.toNat 63 = b.val
    rw [e0, clamp_of_le _ 63 (by rw [toNat_ofNat_fin64]; have := b.isLt; omega) (by decide), toNat_ofNat_fin64]
  · show min (Read.val_main_v22 (F := Ideal) x1 x2 (ix3 b p (1 : Fin 3))).toInt.toNat 511 = (pix (x2 (ix2 b p))).val
    rw [e1, clamp_of_le _ 511 (by omega) (by decide), pix_val_of_lt h2]
  · show min (Read.val_main_v22 (F := Ideal) x1 x2 (ix3 b p (2 : Fin 3))).toInt.toNat 511 = (pix (x1 (ix2 b p))).val
    rw [e2, clamp_of_le _ 511 (by omega) (by decide), pix_val_of_lt h1]

/-- The depth gathered for point B of pair (b, p). -/
private theorem zB_apply (x0 : S64x1x512x512.Idx → EReal) (x3 x4 : IVec S64x50000 32) (b : Fin 64) (p : Fin 50000)
    (h3 : (x3 (ix2 b p)).toNat < 512) (h4 : (x4 (ix2 b p)).toNat < 512) :
    Read.val_main_v44 (F := Ideal) x0 x3 x4 (ix2 b p) = depth x0 b (x4 (ix2 b p)) (x3 (ix2 b p)) := by
  have e0 : Read.val_main_v43 (F := Ideal) x3 x4 (ix3 b p (0 : Fin 3)) = BitVec.ofNat 32 b.val := by
    unfold Read.val_main_v43; rw [concat3_apply0]; exact batch_apply' b p
  have e1 : Read.val_main_v43 (F := Ideal) x3 x4 (ix3 b p (1 : Fin 3)) = x4 (ix2 b p) := by
    unfold Read.val_main_v43; rw [concat3_apply1]; exact yB_apply x4 b p h4
  have e2 : Read.val_main_v43 (F := Ideal) x3 x4 (ix3 b p (2 : Fin 3)) = x3 (ix2 b p) := by
    unfold Read.val_main_v43; rw [concat3_apply2]; exact xB_apply x3 b p h3
  unfold Read.val_main_v44 depth
  rw [gather3_apply, ← image_apply x0 b (pix (x4 (ix2 b p))) (pix (x3 (ix2 b p)))]
  refine congrArg _ (ix3_congr ?_ ?_ ?_)
  · show min (Read.val_main_v43 (F := Ideal) x3 x4 (ix3 b p (0 : Fin 3))).toInt.toNat 63 = b.val
    rw [e0, clamp_of_le _ 63 (by rw [toNat_ofNat_fin64]; have := b.isLt; omega) (by decide), toNat_ofNat_fin64]
  · show min (Read.val_main_v43 (F := Ideal) x3 x4 (ix3 b p (1 : Fin 3))).toInt.toNat 511 = (pix (x4 (ix2 b p))).val
    rw [e1, clamp_of_le _ 511 (by omega) (by decide), pix_val_of_lt h4]
  · show min (Read.val_main_v43 (F := Ideal) x3 x4 (ix3 b p (2 : Fin 3))).toInt.toNat 511 = (pix (x3 (ix2 b p))).val
    rw [e2, clamp_of_le _ 511 (by omega) (by decide), pix_val_of_lt h3]

/-- The loss the program computes for pair (b, p). -/
private theorem point_apply (x0 : S64x1x512x512.Idx → EReal) (x1 x2 x3 x4 : IVec S64x50000 32) (x5 : S64x50000.Idx → EReal)
    (b : Fin 64) (p : Fin 50000)
    (h1 : (x1 (ix2 b p)).toNat < 512) (h2 : (x2 (ix2 b p)).toNat < 512)
    (h3 : (x3 (ix2 b p)).toNat < 512) (h4 : (x4 (ix2 b p)).toNat < 512) :
    Read.val_main_v56 (F := Ideal) x0 x1 x2 x3 x4 x5 (ix2 b p) = pointLoss x0 x1 x2 x3 x4 x5 b p := by
  rw [Read.val_main_v56_apply, Read.val_main_v51_apply, Read.val_main_v55_apply, Read.val_main_v54_apply,
    Read.val_main_v53_apply, Read.val_main_v52_apply, Read.val_main_cst_apply, Read.val_main_v50_apply,
    Read.val_main_v49_apply, Read.val_main_v48_apply, Read.val_main_v47_apply, Read.val_main_v46_apply,
    Read.val_main_v45_apply, zA_apply x0 x1 x2 b p h1 h2, zB_apply x0 x3 x4 b p h3 h4]
  rfl

/-- The program's result is the mean loss. -/
private theorem val58_eq (x0 : S64x1x512x512.Idx → EReal) (x1 x2 x3 x4 : IVec S64x50000 32) (x5 : S64x50000.Idx → EReal)
    (h1 : ∀ i, (x1 i).toNat < 512) (h2 : ∀ i, (x2 i).toNat < 512)
    (h3 : ∀ i, (x3 i).toNat < 512) (h4 : ∀ i, (x4 i).toNat < 512) :
    Read.val_main_v58 (F := Ideal) x0 x1 x2 x3 x4 x5 = fun _ => meanLoss x0 x1 x2 x3 x4 x5 := by
  funext i
  rw [Read.val_main_v58_apply, Read.val_main_v57_apply, Read.val_main_cst_11_apply, Read.val_main_cst_12_apply,
    Ideal.ofBits_def, Ideal.ofBits_zero_f32, zero_add, sum_idx2]
  unfold meanLoss
  rw [Ideal.hostDivf_def, Ideal.ofBits_def]
  refine congrArg (fun s => Ideal.div s count32) ?_
  exact Finset.sum_congr rfl fun b _ => Finset.sum_congr rfl fun p _ =>
    point_apply x0 x1 x2 x3 x4 x5 b p (h1 _) (h2 _) (h3 _) (h4 _)

/-- Every weakly fair execution of the reference ends with its result at the mean loss and its arguments unchanged. -/
theorem run_meanLoss (m : (ℓ : Loc nD τ sig) → Buf (Elt Ideal) ℓ) (ρ : Dev nD → PrngReg)
    (hidx : ∀ c : Dev nD,
      (∀ i, ((m ((c : Thread nD τ).loc main_arg1) : IVec S64x50000 32) i).toNat < 512)
      ∧ (∀ i, ((m ((c : Thread nD τ).loc main_arg2) : IVec S64x50000 32) i).toNat < 512)
      ∧ (∀ i, ((m ((c : Thread nD τ).loc main_arg3) : IVec S64x50000 32) i).toNat < 512)
      ∧ (∀ i, ((m ((c : Thread nD τ).loc main_arg4) : IVec S64x50000 32) i).toNat < 512)) :
    θ_run (defs (F := Ideal)) (onTc (τ := τ) (main (F := Ideal))) ⟨m, fun _ => 0, ρ⟩ (fun r => ∀ c : Dev nD,
      r.2.mem ((c : Thread nD τ).loc main_v58)
        = (fun _ => meanLoss (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run (defs (F := Ideal)) _ _).mono (fun _ h c => ⟨(h c).1.trans ?_, (h c).2⟩)
    (Cert.ReferenceIdeal.Value.run (F := Ideal) m ρ)
  rw [Read.val_main_v58_eq]
  exact val58_eq _ _ _ _ _ _ (hidx c).1 (hidx c).2.1 (hidx c).2.2.1 (hidx c).2.2.2

end Cert.ReferenceIdeal.RefValue

end
-- ==== Proof.lean ====
/-
  The certificate of a pairwise depth-ranking loss: a batch of 64 depth images, 50000 point pairs
  per image, each pair's loss |g| * log1p (exp (-g * d)) + (1 - |g|) * d * d of the difference d of
  the image at the pair's two pixels and the pair's relation g, averaged over all 3.2e6 pairs.

  The kernel walks an image's pairs in 49 tiles of 1024 lanes, picks each pixel with a one-hot row
  selector (a matrix product against the image, split into a rounded half and a remainder that at
  the ideal instance are x and x - x = 0 for finite x) and a one-hot column selector, masks the
  lanes past the 50000th pair, and accumulates the tiles' sums in a per-image output row that the
  host then sums and divides. The reference gathers the pixels with an index gather. On the
  precondition's domain (the image finite, every pixel coordinate in [0, 512)) both are the
  specification's mean loss (Proof/Spec.lean):
    kernel     Proof/Final.lean  (over Pieces, Payload, Losses, Blocks, BlocksPts, Accum, Image, Tail)
    reference  Proof/RefValue.lean
  and the precondition is read in Proof/PreDecoded.lean. Outside that domain the two differ (a
  one-hot selector of an out-of-range coordinate selects nothing, an index gather clamps), which is
  why the coordinate ranges are part of the precondition.

  The three frame claims are the generated frames (the reference's its generated run with the
  result dropped); the idealization rewrote two widenings of a narrowed one-hot selector, each the
  identity at the ideal instance.
-/
import proofs.«428212_j77567109366401_3_alg».proof.Defs
import proofs.«428212_j77567109366401_3_alg».proof.Proof.Gen.Kernel
import proofs.«428212_j77567109366401_3_alg».proof.Proof.Gen.Kernel.Skeleton
import proofs.«428212_j77567109366401_3_alg».proof.Proof.Gen.Kernel.Launch
import proofs.«428212_j77567109366401_3_alg».proof.Proof.Gen.Kernel.Points
import proofs.«428212_j77567109366401_3_alg».proof.Proof.Gen.Kernel.Frame
import proofs.«428212_j77567109366401_3_alg».proof.Proof.Gen.KernelIdeal
import proofs.«428212_j77567109366401_3_alg».proof.Proof.Gen.KernelIdeal.Skeleton
import proofs.«428212_j77567109366401_3_alg».proof.Proof.Gen.KernelIdeal.Launch
import proofs.«428212_j77567109366401_3_alg».proof.Proof.Gen.KernelIdeal.Points
import proofs.«428212_j77567109366401_3_alg».proof.Proof.Gen.KernelIdeal.Frame
import proofs.«428212_j77567109366401_3_alg».proof.Proof.Gen.ReferenceIdeal
import proofs.«428212_j77567109366401_3_alg».proof.Proof.Gen.ReferenceIdeal.Run
import proofs.«428212_j77567109366401_3_alg».proof.Proof.Gen.Pre_finite_inputs
import proofs.«428212_j77567109366401_3_alg».proof.Proof.PreDecoded
import proofs.«428212_j77567109366401_3_alg».proof.Proof.Final
import proofs.«428212_j77567109366401_3_alg».proof.Proof.RefValue
import Idealize.ShloMosaic.Adequacy
import Idealize.ShloMosaic.Init

noncomputable section

namespace Cert.Proof

open Idealize.ShloMosaic Idealize.ShloMosaic.TcCoe Idealize.SL.Sem Cert.GatherLoss

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two rewritten windows: widening a value narrowed to the 16-bit format is the identity on extended reals. -/
theorem preserves : Cert.preserves_Kernel_KernelIdeal :=
  ⟨IdealRules.truncf_extf.statement Cert.KernelIdeal.S1024x512 .f32 .bf16,
   IdealRules.truncf_extf.statement Cert.KernelIdeal.S1024x512 .f32 .bf16⟩

/-- Both runs end at the mean loss of arguments that agree. -/
theorem algebraic : Cert.algebraic_KernelIdeal_ReferenceIdeal := by
  intro m ρ m' ρ' hpre hagree
  have hdec := fun c : Dev Cert.KernelIdeal.nD => pre_decoded _ _ _ _ _ _ (hpre c)
  have hg : ∀ c : Dev Cert.KernelIdeal.nD, Cert.KernelIdeal.Val.Good m c := fun c =>
    ⟨(hdec c).1, (hdec c).2.1, (hdec c).2.2.1, (hdec c).2.2.2.1, (hdec c).2.2.2.2⟩
  refine ⟨_, Cert.KernelIdeal.Val.run m ρ hg, ?_⟩
  refine (θ_run Cert.ReferenceIdeal.defs _ _).mono (fun _ h c => ⟨(h c).1.trans ?_, (h c).2⟩)
    (Cert.ReferenceIdeal.RefValue.run_meanLoss m' ρ' fun c => ?_)
  · -- the reference's coordinate arrays are the kernel's, which the precondition bounds
    rw [(hagree c).2.1, (hagree c).2.2.1, (hagree c).2.2.2.1, (hagree c).2.2.2.2.1]
    exact ⟨(hdec c).2.1, (hdec c).2.2.1, (hdec c).2.2.2.1, (hdec c).2.2.2.2⟩
  · -- the mean loss of arguments that agree
    rw [(hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
